-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S1x200x128 : Shape := ⟨3, ![1, 200, 128]⟩
abbrev S45x2048 : Shape := ⟨2, ![45, 2048]⟩
abbrev S3x2048 : Shape := ⟨2, ![3, 2048]⟩
abbrev S3 : Shape := ⟨1, ![3]⟩
abbrev S128x2048 : Shape := ⟨2, ![128, 2048]⟩
abbrev S128 : Shape := ⟨1, ![128]⟩
abbrev S6144x2176 : Shape := ⟨2, ![6144, 2176]⟩
abbrev S6144x2048 : Shape := ⟨2, ![6144, 2048]⟩
abbrev S6144 : Shape := ⟨1, ![6144]⟩
abbrev S45 : Shape := ⟨1, ![45]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S1x200x128 : S_.BroadcastsInDim S1x200x128 (![] : Fin 0 → Fin S1x200x128.rank)
  reducesTo_S1x200x128_S_d0_1_2 : S1x200x128.ReducesTo [0, 1, 2] S_
  bcast_S_S45x2048 : S_.BroadcastsInDim S45x2048 (![] : Fin 0 → Fin S45x2048.rank)
  reducesTo_S45x2048_S_d0_1 : S45x2048.ReducesTo [0, 1] S_
  bcast_S_S3x2048 : S_.BroadcastsInDim S3x2048 (![] : Fin 0 → Fin S3x2048.rank)
  reducesTo_S3x2048_S_d0_1 : S3x2048.ReducesTo [0, 1] S_
  bcast_S_S3 : S_.BroadcastsInDim S3 (![] : Fin 0 → Fin S3.rank)
  reducesTo_S3_S_d0 : S3.ReducesTo [0] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S6144x2176 : S_.BroadcastsInDim S6144x2176 (![] : Fin 0 → Fin S6144x2176.rank)
  reducesTo_S6144x2176_S_d0_1 : S6144x2176.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S45 : S_.BroadcastsInDim S45 (![] : Fin 0 → Fin S45.rank)
  reducesTo_S45_S_d0 : S45.ReducesTo [0] S_

variable [Facts]

def fn_part3 {F : FTy → Type} [FloatOps F] (main_arg12 : FVec F S45x2048 .f32) (main_arg13 : FVec F S45 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S45x2048 .f32 := Host.absf main_arg12
  let main_cst_20 : FVec F S_ .f32 := constant S_ .f32 0x7F800000#32
  let main_v55 : FVec F S45x2048 .f32 := broadcastInDim S45x2048 ![] bcast_S_S45x2048 main_cst_20
  let main_v56 : IVec S45x2048 1 := cmpf .olt main_v54 main_v55
  let main_c_21 : IVec S_ 1 := constantI S_ 1 1#1
  let main_v57 : IVec S_ 1 := (fun x v => Host.reduce IntOp.andi x v reducesTo_S45x2048_S_d0_1 h_S_) main_v56 main_c_21
  let main_v58 : IVec S_ 1 := andi main_v53 main_v57
  let main_v59 : FVec F S45 .f32 := Host.absf main_arg13
  let main_cst_22 : FVec F S_ .f32 := constant S_ .f32 0x7F800000#32
  let main_v60 : FVec F S45 .f32 := broadcastInDim S45 ![] bcast_S_S45 main_cst_22
  let main_v61 : IVec S45 1 := cmpf .olt main_v59 main_v60
  let main_c_23 : IVec S_ 1 := constantI S_ 1 1#1
  let main_v62 : IVec S_ 1 := (fun x v => Host.reduce IntOp.andi x v reducesTo_S45_S_d0 h_S_) main_v61 main_c_23
  let main_v63 : IVec S_ 1 := andi main_v58 main_v62
  main_v63

def fn_part2 {F : FTy → Type} [FloatOps F] (main_arg8 : FVec F S6144x2176 .f32) (main_arg9 : FVec F S6144x2048 .f32) (main_arg10 : FVec F S6144 .f32) (main_arg11 : FVec F S6144 .f32) (main_arg12 : FVec F S45x2048 .f32) (main_arg13 : FVec F S45 .f32) (main_v33 : IVec S_ 1) : IVec S_ 1 :=
  let main_v34 : FVec F S6144x2176 .f32 := Host.absf main_arg8
  let main_cst_12 : FVec F S_ .f32 := constant S_ .f32 0x7F800000#32
  let main_v35 : FVec F S6144x2176 .f32 := broadcastInDim S6144x2176 ![] bcast_S_S6144x2176 main_cst_12
  let main_v36 : IVec S6144x2176 1 := cmpf .olt main_v34 main_v35
  let main_c_13 : IVec S_ 1 := constantI S_ 1 1#1
  let main_v37 : IVec S_ 1 := (fun x v => Host.reduce IntOp.andi x v reducesTo_S6144x2176_S_d0_1 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg12 main_arg13 main_v48 main_v49 main_v50

def fn_part1 {F : FTy → Type} [FloatOps F] (main_arg5 : FVec F S3 .f32) (main_arg6 : FVec F S128x2048 .f32) (main_arg7 : FVec F S128 .f32) (main_arg8 : FVec F S6144x2176 .f32) (main_arg9 : FVec F S6144x2048 .f32) (main_arg10 : FVec F S6144 .f32) (main_arg11 : FVec F S6144 .f32) (main_arg12 : FVec F S45x2048 .f32) (main_arg13 : FVec F S45 .f32) (main_v13 : IVec S_ 1) (main_v16 : IVec S3x2048 1) : IVec S_ 1 :=
  let main_c_5 : IVec S_ 1 := constantI S_ 1 1#1
  let main_v17 : IVec S_ 1 := (fun x v => Host.reduce IntOp.andi x v reducesTo_S3x2048_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S128x2048 .f32 := Host.absf main_arg6
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x2048 .f32) (main_arg2 : FVec F S1x200x128 .f32) (main_arg3 : FVec F S45x2048 .f32) (main_arg4 : FVec F S3x2048 .f32) (main_arg5 : FVec F S3 .f32) (main_arg6 : FVec F S128x2048 .f32) (main_arg7 : FVec F S128 .f32) (main_arg8 : FVec F S6144x2176 .f32) (main_arg9 : FVec F S6144x2048 .f32) (main_arg10 : FVec F S6144 .f32) (main_arg11 : FVec F S6144 .f32) (main_arg12 : FVec F S45x2048 .f32) (main_arg13 : FVec F S45 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S1x200x128 .f32 := Host.absf main_arg2
  let main_cst_0 : FVec F S_ .f32 := constant S_ .f32 0x7F800000#32
  let main_v5 : FVec F S1x200x128 .f32 := broadcastInDim S1x200x128 ![] bcast_S_S1x200x128 main_cst_0
  let main_v6 : IVec S1x200x128 1 := cmpf .olt main_v4 main_v5
  let main_c_1 : IVec S_ 1 := constantI S_ 1 1#1
  let main_v7 : IVec S_ 1 := (fun x v => Host.reduce IntOp.andi x v reducesTo_S1x200x128_S_d0_1_2 h_S_) main_v6 main_c_1
  let main_v8 : IVec S_ 1 := andi main_v3 main_v7
  let main_v9 : FVec F S45x2048 .f32 := Host.absf main_arg3
  let main_cst_2 : FVec F S_ .f32 := constant S_ .f32 0x7F800000#32
  let main_v10 : FVec F S45x2048 .f32 := broadcastInDim S45x2048 ![] bcast_S_S45x2048 main_cst_2
  let main_v11 : IVec S45x2048 1 := cmpf .olt main_v9 main_v10
  let main_c_3 : IVec S_ 1 := constantI S_ 1 1#1
  let main_v12 : IVec S_ 1 := (fun x v => Host.reduce IntOp.andi x v reducesTo_S45x2048_S_d0_1 h_S_) main_v11 main_c_3
  let main_v13 : IVec S_ 1 := andi main_v8 main_v12
  let main_v14 : FVec F S3x2048 .f32 := Host.absf main_arg4
  let main_cst_4 : FVec F S_ .f32 := constant S_ .f32 0x7F800000#32
  let main_v15 : FVec F S3x2048 .f32 := broadcastInDim S3x2048 ![] bcast_S_S3x2048 main_cst_4
  let main_v16 : IVec S3x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x2048 : Shape := ⟨3, ![1, 1, 2048]⟩
abbrev S1x200x128 : Shape := ⟨3, ![1, 200, 128]⟩
abbrev S45x2048 : Shape := ⟨2, ![45, 2048]⟩
abbrev S3x2048 : Shape := ⟨2, ![3, 2048]⟩
abbrev S3 : Shape := ⟨1, ![3]⟩
abbrev S128x2048 : Shape := ⟨2, ![128, 2048]⟩
abbrev S128 : Shape := ⟨1, ![128]⟩
abbrev S6144x2176 : Shape := ⟨2, ![6144, 2176]⟩
abbrev S6144x2048 : Shape := ⟨2, ![6144, 2048]⟩
abbrev S6144 : Shape := ⟨1, ![6144]⟩
abbrev S45 : Shape := ⟨1, ![45]⟩
abbrev S1x2048 : Shape := ⟨2, ![1, 2048]⟩
abbrev S2048x3 : Shape := ⟨2, ![2048, 3]⟩
abbrev S1x3 : Shape := ⟨2, ![1, 3]⟩
abbrev S_ : Shape := ⟨0, ![]⟩
abbrev S1x1 : Shape := ⟨2, ![1, 1]⟩
abbrev S2048x128 : Shape := ⟨2, ![2048, 128]⟩
abbrev S1x128 : Shape := ⟨2, ![1, 128]⟩
abbrev S1x1x128 : Shape := ⟨3, ![1, 1, 128]⟩
abbrev S1x199x128 : Shape := ⟨3, ![1, 199, 128]⟩
abbrev S1x3x1x1 : Shape := ⟨4, ![1, 3, 1, 1]⟩
abbrev S1x1x1x1 : Shape := ⟨4, ![1, 1, 1, 1]⟩
abbrev S1x1x1 : Shape := ⟨3, ![1, 1, 1]⟩
abbrev S1x2176 : Shape := ⟨2, ![1, 2176]⟩
abbrev S1x6144 : Shape := ⟨2, ![1, 6144]⟩
abbrev S1x256 : Shape := ⟨2, ![1, 256]⟩
abbrev S256x2176 : Shape := ⟨2, ![256, 2176]⟩
abbrev S256x2048 : Shape := ⟨2, ![256, 2048]⟩
abbrev S2048x45 : Shape := ⟨2, ![2048, 45]⟩
abbrev S1x45 : Shape := ⟨2, ![1, 45]⟩

abbrev nBuf : Space → Nat
  | .hbm => 80
  | .vmem => 30
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x200x128, .f32⟩
  | .hbm, ⟨3, _⟩ => ⟨S45x2048, .f32⟩
  | .hbm, ⟨4, _⟩ => ⟨S3x2048, .f32⟩
  | .hbm, ⟨5, _⟩ => ⟨S3, .f32⟩
  | .hbm, ⟨6, _⟩ => ⟨S128x2048, .f32⟩
  | .hbm, ⟨7, _⟩ => ⟨S128, .f32⟩
  | .hbm, ⟨8, _⟩ => ⟨S6144x2176, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S45x2048, .f32⟩
  | .hbm, ⟨13, _⟩ => ⟨S45, .f32⟩
  | .hbm, ⟨14, _⟩ => ⟨S1x2048, .f32⟩
  | .hbm, ⟨15, _⟩ => ⟨S2048x3, .f32⟩
  | .hbm, ⟨16, _⟩ => ⟨S1x3, .f32⟩
  | .hbm, ⟨17, _⟩ => ⟨S1x3, .f32⟩
  | .hbm, ⟨18, _⟩ => ⟨S1x3, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S1x3, .f32⟩
  | .hbm, ⟨26, _⟩ => ⟨S1x3, .f32⟩
  | .hbm, ⟨27, _⟩ => ⟨S1x3, .f32⟩
  | .hbm, ⟨28, _⟩ => ⟨S_, .f32⟩
  | .hbm, ⟨29, _⟩ => ⟨S1, .f32⟩
  | .hbm, ⟨30, _⟩ => ⟨S1x1, .f32⟩
  | .hbm, ⟨31, _⟩ => ⟨S1x3, .f32⟩
  | .hbm, ⟨32, _⟩ => ⟨S1x3, .f32⟩
  | .hbm, ⟨33, _⟩ => ⟨S2048x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x1x128, .f32⟩
  | .hbm, ⟨39, _⟩ => ⟨S_, .f32⟩
  | .hbm, ⟨40, _⟩ => ⟨S1x1x128, .f32⟩
  | .hbm, ⟨41, _⟩ => ⟨S1x199x128, .f32⟩
  | .hbm, ⟨42, _⟩ => ⟨S1x200x128, .f32⟩
  | .hbm, ⟨43, _⟩ => ⟨S1x199x128, .f32⟩
  | .hbm, ⟨44, _⟩ => ⟨S1x200x128, .f32⟩
  | .hbm, ⟨45, _⟩ => ⟨S1x3x1x1, .f32⟩
  | .hbm, ⟨46, _⟩ => ⟨S1x1x1x1, .f32⟩
  | .hbm, ⟨47, _⟩ => ⟨S1x1x1, .f32⟩
  | .hbm, ⟨48, _⟩ => ⟨S1x200x128, .f32⟩
  | .hbm, ⟨49, _⟩ => ⟨S1x200x128, .f32⟩
  | .hbm, ⟨50, _⟩ => ⟨S1x1x1x1, .f32⟩
  | .hbm, ⟨51, _⟩ => ⟨S1x1x1, .f32⟩
  | .hbm, ⟨52, _⟩ => ⟨S1x200x128, .f32⟩
  | .hbm, ⟨53, _⟩ => ⟨S1x200x128, .f32⟩
  | .hbm, ⟨54, _⟩ => ⟨S1x200x128, .f32⟩
  | .hbm, ⟨55, _⟩ => ⟨S1x1x1x1, .f32⟩
  | .hbm, ⟨56, _⟩ => ⟨S1x1x1, .f32⟩
  | .hbm, ⟨57, _⟩ => ⟨S1x200x128, .f32⟩
  | .hbm, ⟨58, _⟩ => ⟨S1x200x128, .f32⟩
  | .hbm, ⟨59, _⟩ => ⟨S1x200x128, .f32⟩
  | .hbm, ⟨60, _⟩ => ⟨S1x1x128, .f32⟩
  | .hbm, ⟨61, _⟩ => ⟨S1x128, .f32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S1, .i32⟩
  | .hbm, ⟨69, _⟩ => ⟨S1x1, .i32⟩
  | .hbm, ⟨70, _⟩ => ⟨S1x2048, .f32⟩
  | .hbm, ⟨71, _⟩ => ⟨S1x2176, .f32⟩
  | .hbm, ⟨72, _⟩ => ⟨S1x6144, .f32⟩
  | .hbm, ⟨73, _⟩ => ⟨S1x6144, .f32⟩
  | .hbm, ⟨74, _⟩ => ⟨S1x2048, .f32⟩
  | .hbm, ⟨75, _⟩ => ⟨S2048x45, .f32⟩
  | .hbm, ⟨76, _⟩ => ⟨S1x45, .f32⟩
  | .hbm, ⟨77, _⟩ => ⟨S1x45, .f32⟩
  | .hbm, ⟨78, _⟩ => ⟨S1x45, .f32⟩
  | .hbm, ⟨79, _⟩ => ⟨S1x1x2048, .f32⟩
  | .local _ .vmem, ⟨0, _⟩ => ⟨S1x2176, .f32⟩
  | .local _ .vmem, ⟨1, _⟩ => ⟨S1x2048, .f32⟩
  | .local _ .vmem, ⟨2, _⟩ => ⟨S1x256, .f32⟩
  | .local _ .vmem, ⟨3, _⟩ => ⟨S1x256, .f32⟩
  | .local _ .vmem, ⟨4, _⟩ => ⟨S256x2176, .f32⟩
  | .local _ .vmem, ⟨5, _⟩ => ⟨S256x2176, .f32⟩
  | .local _ .vmem, ⟨6, _⟩ => ⟨S256x2176, .f32⟩
  | .local _ .vmem, ⟨7, _⟩ => ⟨S256x2176, .f32⟩
  | .local _ .vmem, ⟨8, _⟩ => ⟨S256x2176, .f32⟩
  | .local _ .vmem, ⟨9, _⟩ => ⟨S256x2176, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c : Ref sig .tc := ⟨.hbm, 62, rfl⟩
abbrev main_v44 : Ref sig .tc := ⟨.hbm, 63, rfl⟩
abbrev main_v45 : Ref sig .tc := ⟨.hbm, 64, rfl⟩
abbrev main_c_3 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S1x1x2048_S1x2048 : S1x1x2048.ShapeCasts S1x2048
  transposes_S3x2048_S2048x3_1_0 : S3x2048.Transposes [1, 0] S2048x3
  bcast_S3_S1x3_1 : S3.BroadcastsInDim S1x3 (![1] : Fin 1 → Fin S1x3.rank)
  reducesTo_S1x3_S1_d1 : S1x3.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  transposes_S128x2048_S2048x128_1_0 : S128x2048.Transposes [1, 0] S2048x128
  bcast_S128_S1x128_1 : S128.BroadcastsInDim S1x128 (![1] : Fin 1 → Fin S1x128.rank)
  bcast_S1x128_S1x1x128_0_2 : S1x128.BroadcastsInDim S1x1x128 (![0, 2] : Fin 2 → Fin S1x1x128.rank)
  bcast_S_S1x1x128 : S_.BroadcastsInDim S1x1x128 (![] : Fin 0 → Fin S1x1x128.rank)
  slices_S1x200x128_S1x199x128_0_1_0 : S1x200x128.Slices ![0, 1, 0] S1x199x128
  concatenates_S1x199x128_S1x1x128_S1x200x128_d1 : Shape.Concatenates [S1x199x128, S1x1x128] S1x200x128 1
  slices_S1x200x128_S1x199x128_0_0_0 : S1x200x128.Slices ![0, 0, 0] S1x199x128
  concatenates_S1x1x128_S1x199x128_S1x200x128_d1 : Shape.Concatenates [S1x1x128, S1x199x128] S1x200x128 1
  shapeCasts_S1x3_S1x3x1x1 : S1x3.ShapeCasts S1x3x1x1
  slices_S1x3x1x1_S1x1x1x1_0_2_0_0 : S1x3x1x1.Slices ![0, 2, 0, 0] S1x1x1x1
  shapeCasts_S1x1x1x1_S1x1x1 : S1x1x1x1.ShapeCasts S1x1x1
  bcast_S1x1x1_S1x200x128_0_1_2 : S1x1x1.BroadcastsInDim S1x200x128 (![0, 1, 2] : Fin 3 → Fin S1x200x128.rank)
  slices_S1x3x1x1_S1x1x1x1_0_0_0_0 : S1x3x1x1.Slices ![0, 0, 0, 0] S1x1x1x1
  slices_S1x3x1x1_S1x1x1x1_0_1_0_0 : S1x3x1x1.Slices ![0, 1, 0, 0] S1x1x1x1
  slices_S1x200x128_S1x1x128_0_0_0 : S1x200x128.Slices ![0, 0, 0] S1x1x128
  shapeCasts_S1x1x128_S1x128 : S1x1x128.ShapeCasts S1x128
  concatenates_S1x2048_S1x128_S1x2176_d1 : Shape.Concatenates [S1x2048, S1x128] S1x2176 1
  shapeCasts_S6144_S1x6144 : S6144.ShapeCasts S1x6144
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x2176_S256x2176_0_0 : ∀ a, (![0, 0] : Fin 2 → Nat) a + S256x2176.size a ≤ S256x2176.size a
  h_S256x2176 : 0 < S256x2176.numel
  inb_S256x2048_S256x2048_0_0 : ∀ a, (![0, 0] : Fin 2 → Nat) a + S256x2048.size a ≤ S256x2048.size a
  h_S256x2048 : 0 < S256x2048.numel
  transposes_S45x2048_S2048x45_1_0 : S45x2048.Transposes [1, 0] S2048x45
  bcast_S45_S1x45_1 : S45.BroadcastsInDim S1x45 (![1] : Fin 1 → Fin S1x45.rank)
  bcast_S1x2048_S1x1x2048_1_2 : S1x2048.BroadcastsInDim S1x1x2048 (![1, 2] : Fin 2 → Fin S1x1x2048.rank)
  dot_S1x2048_S2048x3_S1x3_1_0_0_1_n_n_wf : DotDims.WF S1x2048 S2048x3 S1x3 [1] [0] [0] [1] [] []
  dot_S1x2048_S2048x128_S1x128_1_0_0_1_n_n_wf : DotDims.WF S1x2048 S2048x128 S1x128 [1] [0] [0] [1] [] []
  gather_S45x2048_S1x1_S1x2048_1_0_n_n_0_1_12048_wf : GatherDims.WF S45x2048 S1x1 S1x2048 [1] [0] [] [0] [] 1 ![1, 2048]
  dot_S1x2176_S256x2176_S1x256_1_1_0_0_n_n_wf : DotDims.WF S1x2176 S256x2176 S1x256 [1] [1] [0] [0] [] []
  dot_S1x2048_S256x2048_S1x256_1_1_0_0_n_n_wf : DotDims.WF S1x2048 S256x2048 S1x256 [1] [1] [0] [0] [] []
  dot_S1x2048_S2048x45_S1x45_1_0_0_1_n_n_wf : DotDims.WF S1x2048 S2048x45 S1x45 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2176.size a ≤ S1x2176.size a
  hwx0_0 : ∀ i : grid0.Coords, EltTy.bits .f32 = 32 ∨ (Rect.block (s := S1x2176) S1x2176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2176.size a ≤ S6144x2176.size a
  hwx0_3 : ∀ i : grid0.Coords, EltTy.bits .f32 = 32 ∨ (Rect.block (s := S6144x2176) S256x2176.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2176.size a ≤ S6144x2176.size a
  hwx0_4 : ∀ i : grid0.Coords, EltTy.bits .f32 = 32 ∨ (Rect.block (s := S6144x2176) S256x2176.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2176.size a ≤ S6144x2176.size a
  hwx0_5 : ∀ i : grid0.Coords, EltTy.bits .f32 = 32 ∨ (Rect.block (s := S6144x2176) S256x2176.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S6144x2048.size a
  hwx0_6 : ∀ i : grid0.Coords, EltTy.bits .f32 = 32 ∨ (Rect.block (s := S6144x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S6144x2048.size a
  hwx0_7 : ∀ i : grid0.Coords, EltTy.bits .f32 = 32 ∨ (Rect.block (s := S6144x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S6144x2048.size a
  hwx0_8 : ∀ i : grid0.Coords, EltTy.bits .f32 = 32 ∨ (Rect.block (s := S6144x2048) S256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x6144.size a
  hwx0_9 : ∀ i : grid0.Coords, EltTy.bits .f32 = 32 ∨ (Rect.block (s := S1x6144) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x6144.size a
  hwx0_10 : ∀ i : grid0.Coords, EltTy.bits .f32 = 32 ∨ (Rect.block (s := S1x6144) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x6144.size a
  hwx0_11 : ∀ i : grid0.Coords, EltTy.bits .f32 = 32 ∨ (Rect.block (s := S1x6144) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x6144.size a
  hwx0_12 : ∀ i : grid0.Coords, EltTy.bits .f32 = 32 ∨ (Rect.block (s := S1x6144) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x6144.size a
  hwx0_13 : ∀ i : grid0.Coords, EltTy.bits .f32 = 32 ∨ (Rect.block (s := S1x6144) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x6144.size a
  hwx0_14 : ∀ i : grid0.Coords, EltTy.bits .f32 = 32 ∨ (Rect.block (s := S1x6144) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x2048.size a
  hwx0_15 : ∀ i : grid0.Coords, EltTy.bits .f32 = 32 ∨ (Rect.block (s := S1x2048) S1x256.size (cc0_transform_15 i) (hinb0_15 i)).WholeWords (EltTy.packing .f32)

variable [Facts₀]

def dot_S1x2048_S2048x3_S1x3_1_0_0_1_n_n : DotDims S1x2048 S2048x3 S1x3 where
  lhsContracting := [1]
  rhsContracting := [0]
  lhsNonContracting := [0]
  rhsNonContracting := [1]
  lhsBatch := []
  rhsBatch := []
  wf := dot_S1x2048_S2048x3_S1x3_1_0_0_1_n_n_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def gather_S45x2048_S1x1_S1x2048_1_0_n_n_0_1_12048 : GatherDims S45x2048 S1x1 S1x2048 where
  offsetDims := [1]
  collapsedSliceDims := [0]
  operandBatchingDims := []
  startIndicesBatchingDims := []
  startIndexMap := [0]
  indexVectorDim := 1
  sliceSizes := ![1, 2048]
  wf := gather_S45x2048_S1x1_S1x2048_1_0_n_n_0_1_12048_wf
def dot_S1x2176_S256x2176_S1x256_1_1_0_0_n_n : DotDims S1x2176 S256x2176 S1x256 where
  lhsContracting := [1]
  rhsContracting := [1]
  lhsNonContracting := [0]
  rhsNonContracting := [0]
  lhsBatch := []
  rhsBatch := []
  wf := dot_S1x2176_S256x2176_S1x256_1_1_0_0_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x2048_S2048x45_S1x45_1_0_0_1_n_n : DotDims S1x2048 S2048x45 S1x45 where
  lhsContracting := [1]
  rhsContracting := [0]
  lhsNonContracting := [0]
  rhsNonContracting := [1]
  lhsBatch := []
  rhsBatch := []
  wf := dot_S1x2048_S2048x45_S1x45_1_0_0_1_n_n_wf

abbrev win0_0 : Pipeline.Window sig grid0 :=
  Pipeline.Window.ofSpec (Memref.whole main_v51) S1x2176.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x2176.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x2176.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x2176.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v52) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v52) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v52) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v53) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v53) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v53) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v54) S1x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1 : Shape := ⟨1, ![1]⟩
abbrev S1x1x2048 : Shape := ⟨3, ![1, 1, 2048]⟩
abbrev S1x200x128 : Shape := ⟨3, ![1, 200, 128]⟩
abbrev S45x2048 : Shape := ⟨2, ![45, 2048]⟩
abbrev S3x2048 : Shape := ⟨2, ![3, 2048]⟩
abbrev S3 : Shape := ⟨1, ![3]⟩
abbrev S128x2048 : Shape := ⟨2, ![128, 2048]⟩
abbrev S128 : Shape := ⟨1, ![128]⟩
abbrev S6144x2176 : Shape := ⟨2, ![6144, 2176]⟩
abbrev S6144x2048 : Shape := ⟨2, ![6144, 2048]⟩
abbrev S6144 : Shape := ⟨1, ![6144]⟩
abbrev S45 : Shape := ⟨1, ![45]⟩
abbrev S1x2048 : Shape := ⟨2, ![1, 2048]⟩
abbrev S2048x3 : Shape := ⟨2, ![2048, 3]⟩
abbrev S1x3 : Shape := ⟨2, ![1, 3]⟩
abbrev S_ : Shape := ⟨0, ![]⟩
abbrev S1x1 : Shape := ⟨2, ![1, 1]⟩
abbrev S2048x128 : Shape := ⟨2, ![2048, 128]⟩
abbrev S1x128 : Shape := ⟨2, ![1, 128]⟩
abbrev S1x1x128 : Shape := ⟨3, ![1, 1, 128]⟩
abbrev S1x199x128 : Shape := ⟨3, ![1, 199, 128]⟩
abbrev S1x3x1x1 : Shape := ⟨4, ![1, 3, 1, 1]⟩
abbrev S1x1x1x1 : Shape := ⟨4, ![1, 1, 1, 1]⟩
abbrev S1x1x1 : Shape := ⟨3, ![1, 1, 1]⟩
abbrev S1x2176 : Shape := ⟨2, ![1, 2176]⟩
abbrev S2176x6144 : Shape := ⟨2, ![2176, 6144]⟩
abbrev S1x6144 : Shape := ⟨2, ![1, 6144]⟩
abbrev S2048x6144 : Shape := ⟨2, ![2048, 6144]⟩
abbrev S2048x45 : Shape := ⟨2, ![2048, 45]⟩
abbrev S1x45 : Shape := ⟨2, ![1, 45]⟩

abbrev nBuf : Space → Nat
  | .hbm => 118
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x200x128, .f32⟩
  | .hbm, ⟨3, _⟩ => ⟨S45x2048, .f32⟩
  | .hbm, ⟨4, _⟩ => ⟨S3x2048, .f32⟩
  | .hbm, ⟨5, _⟩ => ⟨S3, .f32⟩
  | .hbm, ⟨6, _⟩ => ⟨S128x2048, .f32⟩
  | .hbm, ⟨7, _⟩ => ⟨S128, .f32⟩
  | .hbm, ⟨8, _⟩ => ⟨S6144x2176, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S45x2048, .f32⟩
  | .hbm, ⟨13, _⟩ => ⟨S45, .f32⟩
  | .hbm, ⟨14, _⟩ => ⟨S1x2048, .f32⟩
  | .hbm, ⟨15, _⟩ => ⟨S2048x3, .f32⟩
  | .hbm, ⟨16, _⟩ => ⟨S1x3, .f32⟩
  | .hbm, ⟨17, _⟩ => ⟨S1x3, .f32⟩
  | .hbm, ⟨18, _⟩ => ⟨S1x3, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S1x3, .f32⟩
  | .hbm, ⟨26, _⟩ => ⟨S1x3, .f32⟩
  | .hbm, ⟨27, _⟩ => ⟨S1x3, .f32⟩
  | .hbm, ⟨28, _⟩ => ⟨S_, .f32⟩
  | .hbm, ⟨29, _⟩ => ⟨S1, .f32⟩
  | .hbm, ⟨30, _⟩ => ⟨S1x1, .f32⟩
  | .hbm, ⟨31, _⟩ => ⟨S1x3, .f32⟩
  | .hbm, ⟨32, _⟩ => ⟨S1x3, .f32⟩
  | .hbm, ⟨33, _⟩ => ⟨S2048x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x1x128, .f32⟩
  | .hbm, ⟨39, _⟩ => ⟨S_, .f32⟩
  | .hbm, ⟨40, _⟩ => ⟨S1x1x128, .f32⟩
  | .hbm, ⟨41, _⟩ => ⟨S1x199x128, .f32⟩
  | .hbm, ⟨42, _⟩ => ⟨S1x200x128, .f32⟩
  | .hbm, ⟨43, _⟩ => ⟨S1x199x128, .f32⟩
  | .hbm, ⟨44, _⟩ => ⟨S1x200x128, .f32⟩
  | .hbm, ⟨45, _⟩ => ⟨S1x3x1x1, .f32⟩
  | .hbm, ⟨46, _⟩ => ⟨S1x1x1x1, .f32⟩
  | .hbm, ⟨47, _⟩ => ⟨S1x1x1, .f32⟩
  | .hbm, ⟨48, _⟩ => ⟨S1x200x128, .f32⟩
  | .hbm, ⟨49, _⟩ => ⟨S1x200x128, .f32⟩
  | .hbm, ⟨50, _⟩ => ⟨S1x1x1x1, .f32⟩
  | .hbm, ⟨51, _⟩ => ⟨S1x1x1, .f32⟩
  | .hbm, ⟨52, _⟩ => ⟨S1x200x128, .f32⟩
  | .hbm, ⟨53, _⟩ => ⟨S1x200x128, .f32⟩
  | .hbm, ⟨54, _⟩ => ⟨S1x200x128, .f32⟩
  | .hbm, ⟨55, _⟩ => ⟨S1x1x1x1, .f32⟩
  | .hbm, ⟨56, _⟩ => ⟨S1x1x1, .f32⟩
  | .hbm, ⟨57, _⟩ => ⟨S1x200x128, .f32⟩
  | .hbm, ⟨58, _⟩ => ⟨S1x200x128, .f32⟩
  | .hbm, ⟨59, _⟩ => ⟨S1x200x128, .f32⟩
  | .hbm, ⟨60, _⟩ => ⟨S1x1x128, .f32⟩
  | .hbm, ⟨61, _⟩ => ⟨S1x128, .f32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S1, .i32⟩
  | .hbm, ⟨69, _⟩ => ⟨S1x1, .i32⟩
  | .hbm, ⟨70, _⟩ => ⟨S1x2048, .f32⟩
  | .hbm, ⟨71, _⟩ => ⟨S1x2176, .f32⟩
  | .hbm, ⟨72, _⟩ => ⟨S2176x6144, .f32⟩
  | .hbm, ⟨73, _⟩ => ⟨S1x6144, .f32⟩
  | .hbm, ⟨74, _⟩ => ⟨S1x6144, .f32⟩
  | .hbm, ⟨75, _⟩ => ⟨S1x6144, .f32⟩
  | .hbm, ⟨76, _⟩ => ⟨S2048x6144, .f32⟩
  | .hbm, ⟨77, _⟩ => ⟨S1x6144, .f32⟩
  | .hbm, ⟨78, _⟩ => ⟨S1x6144, .f32⟩
  | .hbm, ⟨79, _⟩ => ⟨S1x6144, .f32⟩
  | .hbm, ⟨80, _⟩ => ⟨S1x2048, .f32⟩
  | .hbm, ⟨81, _⟩ => ⟨S1x2048, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S1x2048, .f32⟩
  | .hbm, ⟨88, _⟩ => ⟨S1x2048, .f32⟩
  | .hbm, ⟨89, _⟩ => ⟨S_, .f32⟩
  | .hbm, ⟨90, _⟩ => ⟨S1x2048, .f32⟩
  | .hbm, ⟨91, _⟩ => ⟨S1x2048, .f32⟩
  | .hbm, ⟨92, _⟩ => ⟨S_, .f32⟩
  | .hbm, ⟨93, _⟩ => ⟨S1x2048, .f32⟩
  | .hbm, ⟨94, _⟩ => ⟨S1x2048, .f32⟩
  | .hbm, ⟨95, _⟩ => ⟨S1x2048, .f32⟩
  | .hbm, ⟨96, _⟩ => ⟨S1x2048, .f32⟩
  | .hbm, ⟨97, _⟩ => ⟨S1x2048, .f32⟩
  | .hbm, ⟨98, _⟩ => ⟨S_, .f32⟩
  | .hbm, ⟨99, _⟩ => ⟨S1x2048, .f32⟩
  | .hbm, ⟨100, _⟩ => ⟨S1x2048, .f32⟩
  | .hbm, ⟨101, _⟩ => ⟨S_, .f32⟩
  | .hbm, ⟨102, _⟩ => ⟨S1x2048, .f32⟩
  | .hbm, ⟨103, _⟩ => ⟨S1x2048, .f32⟩
  | .hbm, ⟨104, _⟩ => ⟨S1x2048, .f32⟩
  | .hbm, ⟨105, _⟩ => ⟨S1x2048, .f32⟩
  | .hbm, ⟨106, _⟩ => ⟨S1x2048, .f32⟩
  | .hbm, ⟨107, _⟩ => ⟨S_, .f32⟩
  | .hbm, ⟨108, _⟩ => ⟨S1x2048, .f32⟩
  | .hbm, ⟨109, _⟩ => ⟨S1x2048, .f32⟩
  | .hbm, ⟨110, _⟩ => ⟨S1x2048, .f32⟩
  | .hbm, ⟨111, _⟩ => ⟨S1x2048, .f32⟩
  | .hbm, ⟨112, _⟩ => ⟨S1x2048, .f32⟩
  | .hbm, ⟨113, _⟩ => ⟨S2048x45, .f32⟩
  | .hbm, ⟨114, _⟩ => ⟨S1x45, .f32⟩
  | .hbm, ⟨115, _⟩ => ⟨S1x45, .f32⟩
  | .hbm, ⟨116, _⟩ => ⟨S1x45, .f32⟩
  | .hbm, ⟨117, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c : Ref sig .tc := ⟨.hbm, 62, rfl⟩
abbrev main_v44 : Ref sig .tc := ⟨.hbm, 63, rfl⟩
abbrev main_v45 : Ref sig .tc := ⟨.hbm, 64, rfl⟩
abbrev main_c_3 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_4 : Ref sig .tc := ⟨.hbm, 89, rfl⟩
abbrev main_v69 : Ref sig .tc := ⟨.hbm, 90, rfl⟩
abbrev main_v70 : Ref sig .tc := ⟨.hbm, 91, rfl⟩
abbrev main_cst_5 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_6 : Ref sig .tc := ⟨.hbm, 98, rfl⟩
abbrev main_v76 : Ref sig .tc := ⟨.hbm, 99, rfl⟩
abbrev main_v77 : Ref sig .tc := ⟨.hbm, 100, rfl⟩
abbrev main_cst_7 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_8 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]

class Facts₀ : Prop where
  shapeCasts_S1x1x2048_S1x2048 : S1x1x2048.ShapeCasts S1x2048
  transposes_S3x2048_S2048x3_1_0 : S3x2048.Transposes [1, 0] S2048x3
  bcast_S3_S1x3_1 : S3.BroadcastsInDim S1x3 (![1] : Fin 1 → Fin S1x3.rank)
  reducesTo_S1x3_S1_d1 : S1x3.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  transposes_S128x2048_S2048x128_1_0 : S128x2048.Transposes [1, 0] S2048x128
  bcast_S128_S1x128_1 : S128.BroadcastsInDim S1x128 (![1] : Fin 1 → Fin S1x128.rank)
  bcast_S1x128_S1x1x128_0_2 : S1x128.BroadcastsInDim S1x1x128 (![0, 2] : Fin 2 → Fin S1x1x128.rank)
  bcast_S_S1x1x128 : S_.BroadcastsInDim S1x1x128 (![] : Fin 0 → Fin S1x1x128.rank)
  slices_S1x200x128_S1x199x128_0_1_0 : S1x200x128.Slices ![0, 1, 0] S1x199x128
  concatenates_S1x199x128_S1x1x128_S1x200x128_d1 : Shape.Concatenates [S1x199x128, S1x1x128] S1x200x128 1
  slices_S1x200x128_S1x199x128_0_0_0 : S1x200x128.Slices ![0, 0, 0] S1x199x128
  concatenates_S1x1x128_S1x199x128_S1x200x128_d1 : Shape.Concatenates [S1x1x128, S1x199x128] S1x200x128 1
  shapeCasts_S1x3_S1x3x1x1 : S1x3.ShapeCasts S1x3x1x1
  slices_S1x3x1x1_S1x1x1x1_0_2_0_0 : S1x3x1x1.Slices ![0, 2, 0, 0] S1x1x1x1
  shapeCasts_S1x1x1x1_S1x1x1 : S1x1x1x1.ShapeCasts S1x1x1
  bcast_S1x1x1_S1x200x128_0_1_2 : S1x1x1.BroadcastsInDim S1x200x128 (![0, 1, 2] : Fin 3 → Fin S1x200x128.rank)
  slices_S1x3x1x1_S1x1x1x1_0_0_0_0 : S1x3x1x1.Slices ![0, 0, 0, 0] S1x1x1x1
  slices_S1x3x1x1_S1x1x1x1_0_1_0_0 : S1x3x1x1.Slices ![0, 1, 0, 0] S1x1x1x1
  slices_S1x200x128_S1x1x128_0_0_0 : S1x200x128.Slices ![0, 0, 0] S1x1x128
  shapeCasts_S1x1x128_S1x128 : S1x1x128.ShapeCasts S1x128
  concatenates_S1x2048_S1x128_S1x2176_d1 : Shape.Concatenates [S1x2048, S1x128] S1x2176 1
  transposes_S6144x2176_S2176x6144_1_0 : S6144x2176.Transposes [1, 0] S2176x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  transposes_S45x2048_S2048x45_1_0 : S45x2048.Transposes [1, 0] S2048x45
  bcast_S45_S1x45_1 : S45.BroadcastsInDim S1x45 (![1] : Fin 1 → Fin S1x45.rank)
  bcast_S1x2048_S1x1x2048_1_2 : S1x2048.BroadcastsInDim S1x1x2048 (![1, 2] : Fin 2 → Fin S1x1x2048.rank)
  dot_S1x2048_S2048x3_S1x3_1_0_0_1_n_n_wf : DotDims.WF S1x2048 S2048x3 S1x3 [1] [0] [0] [1] [] []
  dot_S1x2048_S2048x128_S1x128_1_0_0_1_n_n_wf : DotDims.WF S1x2048 S2048x128 S1x128 [1] [0] [0] [1] [] []
  gather_S45x2048_S1x1_S1x2048_1_0_n_n_0_1_12048_wf : GatherDims.WF S45x2048 S1x1 S1x2048 [1] [0] [] [0] [] 1 ![1, 2048]
  dot_S1x2176_S2176x6144_S1x6144_1_0_0_1_n_n_wf : DotDims.WF S1x2176 S2176x6144 S1x6144 [1] [0] [0] [1] [] []
  dot_S1x2048_S2048x6144_S1x6144_1_0_0_1_n_n_wf : DotDims.WF S1x2048 S2048x6144 S1x6144 [1] [0] [0] [1] [] []
  dot_S1x2048_S2048x45_S1x45_1_0_0_1_n_n_wf : DotDims.WF S1x2048 S2048x45 S1x45 [1] [0] [0] [1] [] []

variable [Facts₀]

def dot_S1x2048_S2048x3_S1x3_1_0_0_1_n_n : DotDims S1x2048 S2048x3 S1x3 where
  lhsContracting := [1]
  rhsContracting := [0]
  lhsNonContracting := [0]
  rhsNonContracting := [1]
  lhsBatch := []
  rhsBatch := []
  wf := dot_S1x2048_S2048x3_S1x3_1_0_0_1_n_n_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def gather_S45x2048_S1x1_S1x2048_1_0_n_n_0_1_12048 : GatherDims S45x2048 S1x1 S1x2048 where
  offsetDims := [1]
  collapsedSliceDims := [0]
  operandBatchingDims := []
  startIndicesBatchingDims := []
  startIndexMap := [0]
  indexVectorDim := 1
  sliceSizes := ![1, 2048]
  wf := gather_S45x2048_S1x1_S1x2048_1_0_n_n_0_1_12048_wf
def dot_S1x2176_S2176x6144_S1x6144_1_0_0_1_n_n : DotDims S1x2176 S2176x6144 S1x6144 where
  lhsContracting := [1]
  rhsContracting := [0]
  lhsNonContracting := [0]
  rhsNonContracting := [1]
  lhsBatch := []
  rhsBatch := []
  wf := dot_S1x2176_S2176x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x45_S1x45_1_0_0_1_n_n : DotDims S1x2048 S2048x45 S1x45 where
  lhsContracting := [1]
  rhsContracting := [0]
  lhsNonContracting := [0]
  rhsNonContracting := [1]
  lhsBatch := []
  rhsBatch := []
  wf := dot_S1x2048_S2048x45_S1x45_1_0_0_1_n_n_wf

class Facts : Prop extends Facts₀ where

variable [Facts]
-- ==== Proof.KbHost.lean ====
/-
  The host side of the kernel program's @main, around its one kernel region.

  @main is sixty host operations (the differentiable-stack update, the embedding gather, the
  concatenation that forms the GRU input, two reshapes of the biases), the region, and five more
  (the decoder's product and bias, and the new hidden state given back its leading axis).  Here: the
  buffers' contents when the region is entered, as the host prefix's fold over the launch contents;
  that @main reduces to the region continued by the five later operations; and that no operation
  before the region writes an argument array.
-/
import proofs.«178255_j28432683500169_1_alg».proof.Proof.Gen.Kernel.Launch
import proofs.«178255_j28432683500169_1_alg».proof.Proof.Gen.Kernel.Skeleton
import proofs.«178255_j28432683500169_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the host prefix folded over the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the five later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- None of the host operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Hand

end
-- ==== Proof.KbBody.lean ====
/-
  The kernel body of the GRU gate kernel, run once on whole staging buffers.

  At a grid point the body reads fifteen buffers — the GRU input row, the hidden row (whole, and its
  256-wide slice), three 256-row blocks of each weight matrix and three 256-wide pieces of each bias —
  and stores one 256-wide row: the new hidden state on that slice.  What the store leaves in the
  output buffer is one pure function of the fifteen inputs' contents (`out`); the body, run from
  buffers holding those contents, terminates holding the inputs as they were and the output at `out`.
-/
import proofs.«178255_j28432683500169_1_alg».proof.Proof.KbHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each buffer whole -/

abbrev rX : Rect S1x2176 := Rect.unit (s := S1x2176) ![0, 0] S1x2176.size inb_S1x2176_S1x2176_0_0
abbrev rH : Rect S1x2048 := Rect.unit (s := S1x2048) ![0, 0] S1x2048.size inb_S1x2048_S1x2048_0_0
abbrev rT : Rect S1x256 := Rect.unit (s := S1x256) ![0, 0] S1x256.size inb_S1x256_S1x256_0_0
abbrev rWi : Rect S256x2176 := Rect.unit (s := S256x2176) ![0, 0] S256x2176.size inb_S256x2176_S256x2176_0_0
abbrev rWh : Rect S256x2048 := Rect.unit (s := S256x2048) ![0, 0] S256x2048.size inb_S256x2048_S256x2048_0_0

/-! ## What the body leaves in the output buffer -/

/-- The output buffer after the body, from the fifteen input buffers' contents: its one store, of the
    new hidden state on the point's slice, over the whole buffer. -/
def out (x0 : Vec F S1x2176 .f32) (x1 : Vec F S1x2048 .f32) (x2 : Vec F S1x256 .f32) (x3 : Vec F S256x2176 .f32) (x4 : Vec F S256x2176 .f32) (x5 : Vec F S256x2176 .f32) (x6 : Vec F S256x2048 .f32) (x7 : Vec F S256x2048 .f32) (x8 : Vec F S256x2048 .f32) (x9 : Vec F S1x256 .f32) (x10 : Vec F S1x256 .f32) (x11 : Vec F S1x256 .f32) (x12 : Vec F S1x256 .f32) (x13 : Vec F S1x256 .f32) (x14 : Vec F S1x256 .f32) : Vec F S1x256 .f32 :=
  View.canon [⟨rT, k0_pay1 (k0_pay3 (View.ld x1 rH)) (k0_pay4 (View.ld x2 rT)) (k0_pay5 (View.ld x0 rX) (View.ld x3 rWi) (View.ld x9 rT)) (k0_pay6 (View.ld x0 rX) (View.ld x4 rWi) (View.ld x10 rT)) (k0_pay7 (View.ld x0 rX) (View.ld x5 rWi) (View.ld x11 rT)) (k0_pay8 (View.ld x1 rH) (View.ld x6 rWh) (View.ld x12 rT)) (View.ld x7 rWh) (View.ld x13 rT) (View.ld x8 rWh) (View.ld x14 rT)⟩]

/-- The one store covers the buffer. -/
theorem cover_out (p0 : Vec F S1x256 .f32) (y : S1x256.Idx) :
    ∃ pc ∈ ([⟨rT, p0⟩] : List (View.Piece (Elt F) S1x256 .f32)), y ∈ pc.1.set :=
  View.cover_of_tiled [⟨rT, p0⟩] S1x256.size (by rfl) y

/-! ## The body's triple -/

set_option maxHeartbeats 4000000 in
/-- The body on whole staging memrefs, the inputs' at contents `xW` and the output's at anything, runs to the
    continuation holding the inputs' as they were and the output's at `out` of the inputs'. -/
theorem sound_kernel (c : Dev nD) (E : Set ℕ) (i : grid0.Coords) (arg1 : Memref sig .tc .vmem S1x2176 .f32) (harg1 : arg1.IsWhole) (arg2 : Memref sig .tc .vmem S1x2048 .f32) (harg2 : arg2.IsWhole) (arg3 : Memref sig .tc .vmem S1x256 .f32) (harg3 : arg3.IsWhole) (arg4 : Memref sig .tc .vmem S256x2176 .f32) (harg4 : arg4.IsWhole) (arg5 : Memref sig .tc .vmem S256x2176 .f32) (harg5 : arg5.IsWhole) (arg6 : Memref sig .tc .vmem S256x2176 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole)
    (x0 : Vec F S1x2176 .f32) (x1 : Vec F S1x2048 .f32) (x2 : Vec F S1x256 .f32) (x3 : Vec F S256x2176 .f32) (x4 : Vec F S256x2176 .f32) (x5 : Vec F S256x2176 .f32) (x6 : Vec F S256x2048 .f32) (x7 : Vec F S256x2048 .f32) (x8 : Vec F S256x2048 .f32) (x9 : Vec F S1x256 .f32) (x10 : Vec F S1x256 .f32) (x11 : Vec F S1x256 .f32) (x12 : Vec F S1x256 .f32) (x13 : Vec F S1x256 .f32) (x14 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out x0 x1 x2 x3 x4 x5 x6 x7 x8 x9 x10 x11 x12 x13 x14)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover_out _)

end Cert.Kernel.Hand

end
-- ==== Proof.KbDat.lean ====
/-
  The pipeline's proof data for the GRU gate kernel, and the body obligation at every grid point.

  The grid has eight points; point t handles columns 256·t … 256·t + 255 of the hidden state.  Every input
  window's staging buffer holds, when the body runs at t, that window's block of its array as the region
  found it — fetched there, or (the two rows fetched once) left in place since the first point.  The
  output window's buffer is left at `out` of the fifteen blocks.  Five arrays are each read through
  two or three windows (the hidden row whole and by slice; each weight matrix and each bias row by its
  reset-, update- and candidate-gate blocks): such an array is held at the full share split among its
  windows, a half and a half, or a half and two quarters.
-/
import proofs.«178255_j28432683500169_1_alg».proof.Proof.KbBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not, for any proof data
    whose array is the region-entry contents and whose body leaves the block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and the
    output's at `out` of the input blocks; the invariant the core's scoped buffers that are no staging buffer, untouched;
    nothing owed; an array read through several windows held at the full share split among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.scopedRest spec0 c
  q w := match w with
    | ⟨0, _⟩ => fullShare
    | ⟨1, _⟩ => fullShare.left
    | ⟨2, _⟩ => fullShare.right
    | ⟨3, _⟩ => fullShare.left
    | ⟨4, _⟩ => fullShare.right.left
    | ⟨5, _⟩ => fullShare.right.right
    | ⟨6, _⟩ => fullShare.left
    | ⟨7, _⟩ => fullShare.right.left
    | ⟨8, _⟩ => fullShare.right.right
    | ⟨9, _⟩ => fullShare.left
    | ⟨10, _⟩ => fullShare.right.left
    | ⟨11, _⟩ => fullShare.right.right
    | ⟨12, _⟩ => fullShare.left
    | ⟨13, _⟩ => fullShare.right.left
    | ⟨14, _⟩ => fullShare.right.right
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant
    and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbSplit.lean ====
/-
  The region's entry: the buffers behind the windows' arrays become the pipeline's arrays.

  Seven buffers stand behind the sixteen windows.  The GRU input row and the output row are each one
  window's array, held whole.  The hidden row is read through two windows, and each weight matrix and
  each bias row through three: its points-to at the full share is split, a half and a half, or a half
  and the two halves of the other half, one piece per window, each at the same contents.
-/
import proofs.«178255_j28432683500169_1_alg».proof.Proof.KbDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## For any proof data over these windows -/

/-- Every window's array is a whole buffer, so its element set is all of the buffer: the arrays are plain
    points-tos, one per window, at the windows' shares. -/
theorem arrays_pts_of {c : Dev nD} (dat : Dat τ (Elt F) Unit ℕ (UR sig nD τ) ℕ cfg0 c)
    (G : (w : Fin cfg0.W) → Buf (Elt F) ((cfg0.win w).arr.view.loc (c.tc : Thread nD τ))) :
    dat.arrays G = bigSep Finset.univ fun w => (((c.tc : Thread nD τ).loc (Pipeline.arrRef spec0 w)) ↦{dat.share w} G w : sProp 𝕄) := by
  unfold Dat.arrays
  exact bigSep_congr fun w _ => by rw [(arr_whole0 w).set_eq_univ]

/-- The sixteen windows' arrays are seven buffers. -/
theorem arrRefs_eq : (Finset.univ.image (Pipeline.arrRef spec0) : Finset (Ref sig .tc))
    = [main_v51, main_v0, main_arg8, main_arg9, main_v52, main_v53, main_v54].toFinset := by decide

/-- The buffers behind the arrays, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v51) ↦{fullShare} W main_v51) ∗ (((c.tc : Thread nD τ).loc main_v0) ↦{fullShare} W main_v0)
        ∗ (((c.tc : Thread nD τ).loc main_arg8) ↦{fullShare} W main_arg8) ∗ (((c.tc : Thread nD τ).loc main_arg9) ↦{fullShare} W main_arg9)
        ∗ (((c.tc : Thread nD τ).loc main_v52) ↦{fullShare} W main_v52) ∗ (((c.tc : Thread nD τ).loc main_v53) ↦{fullShare} W main_v53)
        ∗ (((c.tc : Thread nD τ).loc main_v54) ↦{fullShare} W main_v54)) := by
  unfold Pipeline.arrBufs
  rw [bigSep_eq_bigSepL_of_eq _ arrRefs_eq (by decide)]
  rfl

/-- The buffer behind each window's array. -/
theorem ref_0 : Pipeline.arrRef spec0 0 = main_v51 := rfl
theorem ref_1 : Pipeline.arrRef spec0 1 = main_v0 := rfl
theorem ref_2 : Pipeline.arrRef spec0 2 = main_v0 := rfl
theorem ref_3 : Pipeline.arrRef spec0 3 = main_arg8 := rfl
theorem ref_4 : Pipeline.arrRef spec0 4 = main_arg8 := rfl
theorem ref_5 : Pipeline.arrRef spec0 5 = main_arg8 := rfl
theorem ref_6 : Pipeline.arrRef spec0 6 = main_arg9 := rfl
theorem ref_7 : Pipeline.arrRef spec0 7 = main_arg9 := rfl
theorem ref_8 : Pipeline.arrRef spec0 8 = main_arg9 := rfl
theorem ref_9 : Pipeline.arrRef spec0 9 = main_v52 := rfl
theorem ref_10 : Pipeline.arrRef spec0 10 = main_v52 := rfl
theorem ref_11 : Pipeline.arrRef spec0 11 = main_v52 := rfl
theorem ref_12 : Pipeline.arrRef spec0 12 = main_v53 := rfl
theorem ref_13 : Pipeline.arrRef spec0 13 = main_v53 := rfl
theorem ref_14 : Pipeline.arrRef spec0 14 = main_v53 := rfl
theorem ref_15 : Pipeline.arrRef spec0 15 = main_v54 := rfl

/-- Window `w`'s array at the window's share, before any write-back. -/
abbrev arrPt {c : Dev nD} (dat : Dat τ (Elt F) Unit ℕ (UR sig nD τ) ℕ cfg0 c) (w : Fin 16) : sProp 𝕄 :=
  ((c.tc : Thread nD τ).loc (Pipeline.arrRef spec0 w)) ↦{dat.share w} dat.arrAt w 0

/-- The arrays before any write-back, window by window. -/
theorem arrays_chain {c : Dev nD} (dat : Dat τ (Elt F) Unit ℕ (UR sig nD τ) ℕ cfg0 c) :
    dat.arrays (dat.arrAt · 0) = iprop(arrPt dat 0 ∗ arrPt dat 1 ∗ arrPt dat 2 ∗ arrPt dat 3 ∗ arrPt dat 4 ∗ arrPt dat 5 ∗ arrPt dat 6 ∗ arrPt dat 7 ∗ arrPt dat 8 ∗ arrPt dat 9 ∗ arrPt dat 10 ∗ arrPt dat 11 ∗ arrPt dat 12 ∗ arrPt dat 13 ∗ arrPt dat 14 ∗ arrPt dat 15) :=
  (arrays_pts_of dat _).trans (bigSep_W0 _)

/-- One window's piece: buffer `b` at share `q` and the entry contents is window `w`'s array at its share before any
    write-back, when `b` is the buffer behind that array, `q` the window's share, and the data's array the entry contents. -/
theorem win_pt {c : Dev nD} (dat : Dat τ (Elt F) Unit ℕ (UR sig nD τ) ℕ cfg0 c)
    (hA : ∀ w, dat.A w = V m c (Pipeline.arrRef spec0 w)) (w : Fin 16) (b : Ref sig .tc) (q : PosShare TreeShare)
    (hb : Pipeline.arrRef spec0 w = b) (hq : dat.share w = q) :
    ((((c.tc : Thread nD τ).loc b) ↦{q} V m c b) : sProp 𝕄) ⊢ arrPt dat w := by
  subst hb hq
  unfold arrPt
  rw [show dat.arrAt w 0 = dat.A w from rfl, hA w]

/-- A full share is its left half and its right half, -/
theorem split2 {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1

/-- or its left half and the two halves of its right half. -/
theorem split3 {ℓ : Loc nD τ sig} (f : Buf (Elt F) ℓ) :
    (ℓ ↦{fullShare} f : sProp 𝕄) ⊢ iprop((ℓ ↦{fullShare.left} f) ∗ (ℓ ↦{fullShare.right.left} f) ∗ ℓ ↦{fullShare.right.right} f) :=
  (split2 f).trans (BIClass.sep_mono .rfl (pointsTo_share (PosShare.mem_left_op_right fullShare.right)).1)

/-- A buffer read through two windows, a half each. -/
theorem pair_pt {c : Dev nD} (dat : Dat τ (Elt F) Unit ℕ (UR sig nD τ) ℕ cfg0 c) (hA : ∀ w, dat.A w = V m c (Pipeline.arrRef spec0 w))
    (b : Ref sig .tc) (w₁ w₂ : Fin 16) (r₁ : Pipeline.arrRef spec0 w₁ = b) (r₂ : Pipeline.arrRef spec0 w₂ = b)
    (q₁ : dat.share w₁ = fullShare.left) (q₂ : dat.share w₂ = fullShare.right) :
    ((((c.tc : Thread nD τ).loc b) ↦{fullShare} V m c b) : sProp 𝕄) ⊢ iprop(arrPt dat w₁ ∗ arrPt dat w₂) :=
  (split2 _).trans (BIClass.sep_mono (win_pt m dat hA w₁ b _ r₁ q₁) (win_pt m dat hA w₂ b _ r₂ q₂))

/-- A buffer read through three windows, a half and two quarters. -/
theorem triple_pt {c : Dev nD} (dat : Dat τ (Elt F) Unit ℕ (UR sig nD τ) ℕ cfg0 c) (hA : ∀ w, dat.A w = V m c (Pipeline.arrRef spec0 w))
    (b : Ref sig .tc) (w₁ w₂ w₃ : Fin 16) (r₁ : Pipeline.arrRef spec0 w₁ = b) (r₂ : Pipeline.arrRef spec0 w₂ = b)
    (r₃ : Pipeline.arrRef spec0 w₃ = b) (q₁ : dat.share w₁ = fullShare.left) (q₂ : dat.share w₂ = fullShare.right.left)
    (q₃ : dat.share w₃ = fullShare.right.right) :
    ((((c.tc : Thread nD τ).loc b) ↦{fullShare} V m c b) : sProp 𝕄) ⊢ iprop(arrPt dat w₁ ∗ arrPt dat w₂ ∗ arrPt dat w₃) :=
  (split3 _).trans (BIClass.sep_mono (win_pt m dat hA w₁ b _ r₁ q₁)
    (BIClass.sep_mono (win_pt m dat hA w₂ b _ r₂ q₂) (win_pt m dat hA w₃ b _ r₃ q₃)))

/-- Two pieces ahead of the rest of a chain, -/
theorem sep_two {A R P Q R' : sProp 𝕄} (h : A ⊢ iprop(P ∗ Q)) (hr : R ⊢ R') : iprop(A ∗ R) ⊢ iprop(P ∗ Q ∗ R') :=
  (BIClass.sep_mono h hr).trans Laws.sep_assoc.1

/-- or three. -/
theorem sep_three {A R P Q S R' : sProp 𝕄} (h : A ⊢ iprop(P ∗ Q ∗ S)) (hr : R ⊢ R') : iprop(A ∗ R) ⊢ iprop(P ∗ Q ∗ S ∗ R') :=
  (BIClass.sep_mono h hr).trans (Laws.sep_assoc.1.trans (BIClass.sep_mono .rfl Laws.sep_assoc.1))

/-- The buffers behind the arrays, whole at the entry contents, are the arrays before any write-back, for any proof
    data whose arrays are the entry contents and whose windows hold these shares. -/
theorem hsplit_of {c : Dev nD} (dat : Dat τ (Elt F) Unit ℕ (UR sig nD τ) ℕ cfg0 c)
    (hA : ∀ w, dat.A w = V m c (Pipeline.arrRef spec0 w))
    (h0 : dat.share (0 : Fin 16) = fullShare) (h1 : dat.share (1 : Fin 16) = fullShare.left) (h2 : dat.share (2 : Fin 16) = fullShare.right)
    (h3 : dat.share (3 : Fin 16) = fullShare.left) (h4 : dat.share (4 : Fin 16) = fullShare.right.left) (h5 : dat.share (5 : Fin 16) = fullShare.right.right)
    (h6 : dat.share (6 : Fin 16) = fullShare.left) (h7 : dat.share (7 : Fin 16) = fullShare.right.left) (h8 : dat.share (8 : Fin 16) = fullShare.right.right)
    (h9 : dat.share (9 : Fin 16) = fullShare.left) (h10 : dat.share (10 : Fin 16) = fullShare.right.left) (h11 : dat.share (11 : Fin 16) = fullShare.right.right)
    (h12 : dat.share (12 : Fin 16) = fullShare.left) (h13 : dat.share (13 : Fin 16) = fullShare.right.left) (h14 : dat.share (14 : Fin 16) = fullShare.right.right)
    (h15 : dat.share (15 : Fin 16) = fullShare) :
    (Pipeline.arrBufs spec0 c (V m c) : sProp 𝕄) ⊢ dat.arrays (dat.arrAt · 0) := by
  rw [arrays_chain, arrBufs_eq]
  exact BIClass.sep_mono (win_pt m dat hA 0 main_v51 _ ref_0 h0)
    (sep_two (pair_pt m dat hA main_v0 1 2 ref_1 ref_2 h1 h2)
      (sep_three (triple_pt m dat hA main_arg8 3 4 5 ref_3 ref_4 ref_5 h3 h4 h5)
        (sep_three (triple_pt m dat hA main_arg9 6 7 8 ref_6 ref_7 ref_8 h6 h7 h8)
          (sep_three (triple_pt m dat hA main_v52 9 10 11 ref_9 ref_10 ref_11 h9 h10 h11)
            (sep_three (triple_pt m dat hA main_v53 12 13 14 ref_12 ref_13 ref_14 h12 h13 h14)
              (win_pt m dat hA 15 main_v54 _ ref_15 h15))))))

/-! ## For this kernel's proof data -/

/-- The share each window holds its array at: an input's is the data's own, the output's is full. -/
theorem share_0 (c : Dev nD) : (dats m 0 c).share (0 : Fin 16) = fullShare := by unfold Dat.share; rfl
theorem share_1 (c : Dev nD) : (dats m 0 c).share (1 : Fin 16) = fullShare.left := by unfold Dat.share; rfl
theorem share_2 (c : Dev nD) : (dats m 0 c).share (2 : Fin 16) = fullShare.right := by unfold Dat.share; rfl
theorem share_3 (c : Dev nD) : (dats m 0 c).share (3 : Fin 16) = fullShare.left := by unfold Dat.share; rfl
theorem share_4 (c : Dev nD) : (dats m 0 c).share (4 : Fin 16) = fullShare.right.left := by unfold Dat.share; rfl
theorem share_5 (c : Dev nD) : (dats m 0 c).share (5 : Fin 16) = fullShare.right.right := by unfold Dat.share; rfl
theorem share_6 (c : Dev nD) : (dats m 0 c).share (6 : Fin 16) = fullShare.left := by unfold Dat.share; rfl
theorem share_7 (c : Dev nD) : (dats m 0 c).share (7 : Fin 16) = fullShare.right.left := by unfold Dat.share; rfl
theorem share_8 (c : Dev nD) : (dats m 0 c).share (8 : Fin 16) = fullShare.right.right := by unfold Dat.share; rfl
theorem share_9 (c : Dev nD) : (dats m 0 c).share (9 : Fin 16) = fullShare.left := by unfold Dat.share; rfl
theorem share_10 (c : Dev nD) : (dats m 0 c).share (10 : Fin 16) = fullShare.right.left := by unfold Dat.share; rfl
theorem share_11 (c : Dev nD) : (dats m 0 c).share (11 : Fin 16) = fullShare.right.right := by unfold Dat.share; rfl
theorem share_12 (c : Dev nD) : (dats m 0 c).share (12 : Fin 16) = fullShare.left := by unfold Dat.share; rfl
theorem share_13 (c : Dev nD) : (dats m 0 c).share (13 : Fin 16) = fullShare.right.left := by unfold Dat.share; rfl
theorem share_14 (c : Dev nD) : (dats m 0 c).share (14 : Fin 16) = fullShare.right.right := by unfold Dat.share; rfl
theorem share_15 (c : Dev nD) : (dats m 0 c).share (15 : Fin 16) = fullShare := by unfold Dat.share; rfl

/-- The proof data's arrays, each window's array a whole buffer: plain points-tos at the windows' shares. -/
theorem arrays_pts (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) :=
  arrays_pts_of (dats m 0 c) G

/-- At the region's entry the buffers behind the arrays, whole at the entry contents, are the proof data's arrays
    at their shares. -/
theorem hsplit (c : Dev nD) :
    (Pipeline.arrBufs spec0 c (V m c) : sProp 𝕄) ⊢ (dats m 0 c).arrays ((dats m 0 c).arrAt · 0) :=
  hsplit_of m (dats m 0 c) (A_eq m c) (share_0 m c) (share_1 m c) (share_2 m c) (share_3 m c) (share_4 m c) (share_5 m c)
    (share_6 m c) (share_7 m c) (share_8 m c) (share_9 m c) (share_10 m c) (share_11 m c) (share_12 m c) (share_13 m c)
    (share_14 m c) (share_15 m c)

end Cert.Kernel.Hand

end
-- ==== Proof.KbTail.lean ====
/-
  The five host operations after the region, run from the region's exit.

  They read the kernel's output row (the new hidden state), the decoder's weight and bias, and write four
  fresh buffers; they touch no array that several windows share.  So they run holding only the output
  row's array, whole, and the buffers that bypass the region, the other windows' arrays set aside at
  their shares; afterwards the bypassing buffers hold the operations' fold over the exit contents.
-/
import proofs.«178255_j28432683500169_1_alg».proof.Proof.KbDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents after the operations that follow the region: their fold over the exit contents,
    the windows' arrays as the write-backs left them and every other buffer as the region found it. -/
abbrev Wfin (c : Dev nD) (b : Ref sig .tc) : Buf (Elt F) ((c : Thread nD τ).loc b) :=
  Pipeline.afterTail₀ cfgs (dats m) 0 (V0 m) [hostOps1] c b

/-- The buffers the operations after the region run within: the output row and the buffers that bypass the region. -/
def tailS : Finset (DevRef τ sig) :=
  (insert main_v54 (Pipeline.restRefs sig spec0)).map ⟨Proc.devRef (sig := sig) .tc, Proc.devRef_injective _⟩

/-- The output row is a window's array, so no bypassing buffer. -/
theorem v54_not_rest : main_v54 ∉ Pipeline.restRefs sig spec0 := fun h =>
  (Finset.mem_sdiff.mp h).2 (Finset.mem_image.mpr ⟨(15 : Fin 16), Finset.mem_univ _, rfl⟩)

/-- The output row, or an unscoped reference that is no window's array, is among them. -/
theorem mem_tailS_of (b : Ref sig .tc)
    (h : b = main_v54 ∨ (b.isScoped = false ∧ ∀ w, (spec0 w).arr.view.ref ≠ b)) : Proc.devRef (τ := τ) .tc b ∈ tailS := by
  unfold tailS
  refine Finset.mem_map.mpr ⟨b, ?_, rfl⟩
  rcases h with rfl | ⟨hs, ha⟩
  · exact Finset.mem_insert_self _ _
  · exact Finset.mem_insert_of_mem (Pipeline.mem_restRefs_of b hs ha)

/-- Held over that set: the output row whole, and the bypassing buffers. -/
theorem held_tailS (c : Dev nD) (Wv : Valuation τ sig (Elt F)) :
    (StableHlo.held (c.tc : Thread nD τ) tailS Wv : sProp 𝕄)
      = iprop((((c.tc : Thread nD τ).loc main_v54) ↦{fullShare} Wv (Proc.devRef .tc main_v54))
          ∗ Pipeline.unscopedRest spec0 c (fun b => Wv (Proc.devRef .tc b))) := by
  unfold StableHlo.held tailS Pipeline.unscopedRest
  rw [bigSep_map, bigSep_insert v54_not_rest]
  rfl

/-- Each of the five operations touches only the output row and bypassing buffers. -/
theorem hostOps1_within : ∀ ops ∈ [(hostOps1 : List (HloOp τ sig (Elt F)))], ∀ op ∈ ops, op.bufs ⊆ tailS := by
  intro ops hops op hop b hb
  obtain rfl : ops = hostOps1 := List.mem_singleton.mp hops
  simp only [hostOps1, List.mem_cons, List.not_mem_nil, or_false] at hop
  rcases hop with rfl | rfl | rfl | rfl | rfl
  all_goals
    simp only [StableHlo.unary_bufs, StableHlo.binary_bufs, Finset.mem_insert, Finset.mem_singleton] at hb
    rcases hb with rfl | rfl | rfl <;> exact mem_tailS_of _ (by decide)

/-- None of the five operations writes the output row. -/
theorem hostOps1_keep : ∀ op ∈ List.flatten [(hostOps1 : List (HloOp τ sig (Elt F)))], Proc.devRef .tc main_v54 ∉ op.writes :=
  List.forall_iff_forall_mem.mp (by
    simp only [hostOps1, List.flatten_cons, List.flatten_nil, List.append_nil, List.cons_append,
      List.nil_append, List.Forall, StableHlo.unary_writes, StableHlo.binary_writes, Finset.mem_singleton]
    repeat' apply And.intro
    all_goals exact StableHlo.devRef_ne_of_ne (by decide))

/-- Window 15 is the only window whose array is the output row. -/
theorem arr_v54_only : ∀ w : Fin 16, Pipeline.arrRef spec0 w = main_v54 → w = 15 := by decide

/-- The exit contents at the output row's array are what the write-backs left there. -/
theorem exit_v54 (c : Dev nD) :
    Pipeline.withArrays spec0 c (V0 m c) (fun w => (dats m 0 c).arrAt w cfg0.N) (Proc.devRef .tc main_v54)
      = (dats m 0 c).arrAt 15 cfg0.N := by
  unfold Pipeline.withArrays
  have h : ∃ w', Proc.devRef .tc (Pipeline.arrRef spec0 w') = Proc.devRef (τ := τ) .tc main_v54 := ⟨15, rfl⟩
  rw [dif_pos h]
  suffices ∀ (w' : Fin 16) (e : Proc.devRef .tc (Pipeline.arrRef spec0 w') = Proc.devRef (τ := τ) .tc main_v54),
      cast (congrArg (fun b' : DevRef τ sig => b'.ty.Contents (Elt F)) e) ((dats m 0 c).arrAt w' cfg0.N)
        = (dats m 0 c).arrAt 15 cfg0.N from this _ h.choose_spec
  intro w' e
  obtain rfl : w' = 15 := arr_v54_only w' (Proc.devRef_injective _ e)
  rfl

/-- The output window's array is held at the full share. -/
theorem share_out (c : Dev nD) : (dats m 0 c).share 15 = fullShare := by
  unfold Dat.share
  exact if_pos rfl

/-- The proof data's arrays: the output row's, whole at the full share, and the other fifteen windows' at their shares. -/
theorem arrays_out (c : Dev nD) (G : (w : Fin cfg0.W) → Buf (Elt F) ((cfg0.win w).arr.view.loc (c.tc : Thread nD τ))) :
    (dats m 0 c).arrays G
      = iprop((((c.tc : Thread nD τ).loc main_v54) ↦{fullShare} G 15)
          ∗ bigSep (Finset.univ.erase (15 : Fin cfg0.W)) fun w =>
              ((cfg0.win w).arr.view.loc (c.tc : Thread nD τ) ↦[(cfg0.win w).arr.view.set]{(dats m 0 c).share w} G w : sProp 𝕄)) := by
  have h15 : ((cfg0.win 15).arr.view.loc (c.tc : Thread nD τ) ↦[(cfg0.win 15).arr.view.set]{(dats m 0 c).share 15} G 15 : sProp 𝕄)
      = (((c.tc : Thread nD τ).loc main_v54) ↦{fullShare} G 15) := by
    rw [(arr_whole0 15).set_eq_univ, share_out]
  unfold Dat.arrays
  rw [bigSep_erase (Finset.mem_univ (15 : Fin cfg0.W)), h15]
  rfl

/-- `Wfin` read at a reference: the operations folded over the exit contents. -/
theorem Wfin_eq (c : Dev nD) (b : Ref sig .tc) :
    Wfin m c b = StableHlo.after (List.flatten [hostOps1])
      (Pipeline.withArrays spec0 c (V0 m c) fun w => (dats m 0 c).arrAt w cfg0.N) (Proc.devRef .tc b) := rfl

/-- The exit contents at a bypassing buffer are the region-entry contents. -/
theorem rest_exit (c : Dev nD) :
    (Pipeline.unscopedRest spec0 c
        (fun b => Pipeline.withArrays spec0 c (V0 m c) (fun w => (dats m 0 c).arrAt w cfg0.N) (Proc.devRef .tc b)) : sProp 𝕄)
      = Pipeline.unscopedRest spec0 c (V m c) := by
  unfold Pipeline.unscopedRest
  exact bigSep_congr fun b hb => by
    dsimp only
    rw [Pipeline.withArrays_of_ne spec0 c (V0 m c) _ b fun w e =>
      (Finset.mem_sdiff.mp hb).2 (Finset.mem_image.mpr ⟨w, Finset.mem_univ _, e⟩)]

/-- The operations after the region, from the region's exit: they hand back the arrays as they were and the
    bypassing buffers at `Wfin`. -/
theorem htail (c : Dev nD) (Q' : PUnit → sProp 𝕄) :
    iprop((iprop((dats m 0 c).arrays ((dats m 0 c).arrAt · cfg0.N) ∗ Pipeline.unscopedRest spec0 c (Wfin m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  classical
  -- what is held at the exit contents, and after the operations
  have hW : (StableHlo.held (c.tc : Thread nD τ) tailS
        (Pipeline.withArrays spec0 c (V0 m c) fun w => (dats m 0 c).arrAt w cfg0.N) : sProp 𝕄)
      = iprop((((c.tc : Thread nD τ).loc main_v54) ↦{fullShare} (dats m 0 c).arrAt 15 cfg0.N)
          ∗ Pipeline.unscopedRest spec0 c (V m c)) := by
    rw [held_tailS, exit_v54, rest_exit]
  have hW' : (StableHlo.held (c.tc : Thread nD τ) tailS
        (StableHlo.after (List.flatten [hostOps1])
          (Pipeline.withArrays spec0 c (V0 m c) fun w => (dats m 0 c).arrAt w cfg0.N)) : sProp 𝕄)
      = iprop((((c.tc : Thread nD τ).loc main_v54) ↦{fullShare} (dats m 0 c).arrAt 15 cfg0.N)
          ∗ Pipeline.unscopedRest spec0 c (Wfin m c)) := by
    rw [held_tailS, StableHlo.after_of_forall_not_mem _ _ hostOps1_keep, exit_v54,
      show Wfin m c = fun b => StableHlo.after (List.flatten [hostOps1])
        (Pipeline.withArrays spec0 c (V0 m c) fun w => (dats m 0 c).arrAt w cfg0.N) (Proc.devRef .tc b) from funext (Wfin_eq m c)]
  have hfresh : ∀ ops ∈ [(hostOps1 : List (HloOp τ sig (Elt F)))], ∀ op ∈ ops, op.fresh = ∅ := fun ops hops op hop => by
    obtain rfl : ops = hostOps1 := List.mem_singleton.mp hops
    exact List.forall_iff_forall_mem.mp hostOps1_fresh op hop
  have key := Pipeline.wp_seqs_then (Ix := Unit) (Name := ℕ) (U := UR sig nD τ) (Lvl := ℕ) pcfgs defs₀ Variants.none c tailS [] [hostOps1]
    hostOps1_within hfresh (Pipeline.withArrays spec0 c (V0 m c) fun w => (dats m 0 c).arrAt w cfg0.N) (K := Q')
  rw [List.map_cons, List.map_nil, List.append_nil, hW, hW'] at key
  rw [arrays_out, show (defs (F := F)) = Pipeline.defs pcfgs defs₀ from rfl]
  iintro ⟨Hk, Hb, ⟨H15, Hoth⟩, HZ⟩
  iapply key $$ [Hb H15 HZ]
  · isplitl [Hb]; · iexact Hb
    isplitl [H15]; · iexact H15
    iexact HZ
  iintro ⟨-, H15, HZ⟩
  rw [Pipeline.chain_nil, wp_pure]
  imodintro
  iapply Hk
  isplitl [H15 Hoth]
  · isplitl [H15]; · iexact H15
    iexact Hoth
  · iexact HZ

end Cert.Kernel.Hand

end
-- ==== Proof.KbRun.lean ====
/-
  The run of the kernel program's @main, and its frame.

  Every weakly fair execution from a memory with zero counters terminates; every window's array ends at
  what the write-backs made of it — an input's as the region found it, the output row's overwritten block
  by block by what the body left — and every buffer that bypasses the region ends at the later host
  operations' fold over the exit contents.  The launch is the library's for a kernel with no semaphore
  of its own whose input windows may share arrays: the entry splits each shared array among its windows
  (the entry lemma), the later operations run beside the set-aside arrays (the exit lemma), and the
  bypassing buffers are read back from the final state.  The frame follows: an argument array that is a
  window's array is an input's, never written; any other is written neither before nor after the region.
-/
import proofs.«178255_j28432683500169_1_alg».proof.Proof.KbSplit
import proofs.«178255_j28432683500169_1_alg».proof.Proof.KbTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- The run: the arrays at what the proof data computes, the bypassing buffers at `Wfin`. -/
theorem run_main : θ_run defs (onTc (τ := τ) (main (F := F))) ⟨m, fun _ => 0, ρ⟩ (Pipeline.FramePost cfgs (dats m) 0 (Wfin m)) := by
  classical
  exact Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main
    (fun _ => Pipeline.chain [StableHlo.seq hostOps1])
    (fun c => (body_obligation m c).loose)
    block_pos0 arr_whole0 stage_whole0 (fun _ _ => rfl)
    (u₀ := initOf (Pipeline.cells cfgs cellOf_inj) (Pipeline.launchToks cfgs cellOf_inj))
    (hu₀ := .rfl)
    (V := V m) (hmain := hmain m Variants.none)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Wfin m c))
    (hX := fun c => by
      rw [Pipeline.unscopedRestP_none]
      iintro H; isplitr; · iempintro
      iexact H)
    (hin := fun c => (show iprop((iprop(emp) : sProp 𝕄) ∗ _ ∗ Pipeline.scopedRest spec0 c) ⊢ Pipeline.scopedRest spec0 c from by
      iintro ⟨-, -, HR⟩; iexact HR))
    (hout := fun c => (show (Pipeline.scopedRest spec0 c : sProp 𝕄) ⊢ iprop(iprop(emp) ∗ Pipeline.scopedRest spec0 c) from by
      iintro HR; isplitr; · iempintro
      iexact HR))
    (htail := fun c Q' => htail m c Q')
    (QY := fun c s => ∀ b ∈ Pipeline.restRefs sig spec0, s.mem ((c.tc : Thread nD τ).loc b) = Wfin m c b)
    (hY := fun c s' => by
      iintro ⟨-, HU, HSI⟩
      unfold Pipeline.unscopedRest
      imodintro
      iapply (pointsTo_read_all (Pipeline.restRefs sig spec0) (fun b => (c.tc : Thread nD τ).loc b) (Wfin m c) s')
      isplitl [HU] <;> iassumption)
    (hQ := fun s h c => ⟨(h c).1, (h c).2.2⟩)

/-- None of the operations after the region writes argument 0, and it is no window's array: it ends as launched. -/
theorem W_main_arg0 (c : Dev nD) : Wfin m c main_arg0 = m ((c : Thread nD τ).loc main_arg0) := by
  unfold Wfin Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- None of the operations after the region writes argument 1, and it is no window's array: it ends as launched. -/
theorem W_main_arg1 (c : Dev nD) : Wfin m c main_arg1 = m ((c : Thread nD τ).loc main_arg1) := by
  unfold Wfin Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the operations after the region writes argument 2, and it is no window's array: it ends as launched. -/
theorem W_main_arg2 (c : Dev nD) : Wfin m c main_arg2 = m ((c : Thread nD τ).loc main_arg2) := by
  unfold Wfin Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the operations after the region writes argument 3, and it is no window's array: it ends as launched. -/
theorem W_main_arg3 (c : Dev nD) : Wfin m c main_arg3 = m ((c : Thread nD τ).loc main_arg3) := by
  unfold Wfin Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the operations after the region writes argument 4, and it is no window's array: it ends as launched. -/
theorem W_main_arg4 (c : Dev nD) : Wfin m c main_arg4 = m ((c : Thread nD τ).loc main_arg4) := by
  unfold Wfin Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- None of the operations after the region writes argument 5, and it is no window's array: it ends as launched. -/
theorem W_main_arg5 (c : Dev nD) : Wfin m c main_arg5 = m ((c : Thread nD τ).loc main_arg5) := by
  unfold Wfin Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- None of the operations after the region writes argument 6, and it is no window's array: it ends as launched. -/
theorem W_main_arg6 (c : Dev nD) : Wfin m c main_arg6 = m ((c : Thread nD τ).loc main_arg6) := by
  unfold Wfin Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- None of the operations after the region writes argument 7, and it is no window's array: it ends as launched. -/
theorem W_main_arg7 (c : Dev nD) : Wfin m c main_arg7 = m ((c : Thread nD τ).loc main_arg7) := by
  unfold Wfin Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- None of the operations after the region writes argument 10, and it is no window's array: it ends as launched. -/
theorem W_main_arg10 (c : Dev nD) : Wfin m c main_arg10 = m ((c : Thread nD τ).loc main_arg10) := by
  unfold Wfin Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- None of the operations after the region writes argument 11, and it is no window's array: it ends as launched. -/
theorem W_main_arg11 (c : Dev nD) : Wfin m c main_arg11 = m ((c : Thread nD τ).loc main_arg11) := by
  unfold Wfin Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- None of the operations after the region writes argument 12, and it is no window's array: it ends as launched. -/
theorem W_main_arg12 (c : Dev nD) : Wfin m c main_arg12 = m ((c : Thread nD τ).loc main_arg12) := by
  unfold Wfin Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- None of the operations after the region writes argument 13, and it is no window's array: it ends as launched. -/
theorem W_main_arg13 (c : Dev nD) : Wfin m c main_arg13 = m ((c : Thread nD τ).loc main_arg13) := by
  unfold Wfin Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- From the run's post: the fourteen argument arrays are as launched. -/
theorem args_kept (r : PUnit × MemSt nD τ sig (Elt F)) (h : Pipeline.FramePost cfgs (dats m) 0 (Wfin m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  have hr := fun b hb => (h c).2 b hb
  have ha := (h c).1
  refine ⟨(hr main_arg0 (Pipeline.mem_restRefs_of main_arg0 (by decide) (by decide))).trans (W_main_arg0 m c), (hr main_arg1 (Pipeline.mem_restRefs_of main_arg1 (by decide) (by decide))).trans (W_main_arg1 m c), (hr main_arg2 (Pipeline.mem_restRefs_of main_arg2 (by decide) (by decide))).trans (W_main_arg2 m c), (hr main_arg3 (Pipeline.mem_restRefs_of main_arg3 (by decide) (by decide))).trans (W_main_arg3 m c), (hr main_arg4 (Pipeline.mem_restRefs_of main_arg4 (by decide) (by decide))).trans (W_main_arg4 m c), (hr main_arg5 (Pipeline.mem_restRefs_of main_arg5 (by decide) (by decide))).trans (W_main_arg5 m c), (hr main_arg6 (Pipeline.mem_restRefs_of main_arg6 (by decide) (by decide))).trans (W_main_arg6 m c), (hr main_arg7 (Pipeline.mem_restRefs_of main_arg7 (by decide) (by decide))).trans (W_main_arg7 m c), ?_, ?_, (hr main_arg10 (Pipeline.mem_restRefs_of main_arg10 (by decide) (by decide))).trans (W_main_arg10 m c), (hr main_arg11 (Pipeline.mem_restRefs_of main_arg11 (by decide) (by decide))).trans (W_main_arg11 m c), (hr main_arg12 (Pipeline.mem_restRefs_of main_arg12 (by decide) (by decide))).trans (W_main_arg12 m c), (hr main_arg13 (Pipeline.mem_restRefs_of main_arg13 (by decide) (by decide))).trans (W_main_arg13 m c)⟩
  · exact (ha 3).trans (((dats m 0 c).arrAt_in 3 rfl _).trans ((A_eq m c 3).trans (V_main_arg8 m c)))
  · exact (ha 6).trans (((dats m 0 c).arrAt_in 6 rfl _).trans ((A_eq m c 6).trans (V_main_arg9 m c)))

/-- THE FRAME: every execution terminates, faults nowhere, and leaves the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m r h c) (run_main m ρ)

end Cert.Kernel.Hand

end
-- ==== Proof.KiHost.lean ====
/-
  The host side of the idealized kernel program's @main, around its one kernel region.

  @main is sixty host operations (the differentiable-stack update, the embedding gather, the
  concatenation that forms the GRU input, two reshapes of the biases), the region, and five more
  (the decoder's product and bias, and the new hidden state given back its leading axis).  Here: the
  buffers' contents when the region is entered, as the host prefix's fold over the launch contents;
  that @main reduces to the region continued by the five later operations; and that no operation
  before the region writes an argument array.
-/
import proofs.«178255_j28432683500169_1_alg».proof.Proof.Gen.KernelIdeal.Launch
import proofs.«178255_j28432683500169_1_alg».proof.Proof.Gen.KernelIdeal.Skeleton
import proofs.«178255_j28432683500169_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the host prefix folded over the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the five later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- None of the host operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host operations before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Hand

end
-- ==== Proof.KiBody.lean ====
/-
  The kernel body of the GRU gate kernel, run once on whole staging buffers.

  At a grid point the body reads fifteen buffers — the GRU input row, the hidden row (whole, and its
  256-wide slice), three 256-row blocks of each weight matrix and three 256-wide pieces of each bias —
  and stores one 256-wide row: the new hidden state on that slice.  What the store leaves in the
  output buffer is one pure function of the fifteen inputs' contents (`out`); the body, run from
  buffers holding those contents, terminates holding the inputs as they were and the output at `out`.
-/
import proofs.«178255_j28432683500169_1_alg».proof.Proof.KiHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each buffer whole -/

abbrev rX : Rect S1x2176 := Rect.unit (s := S1x2176) ![0, 0] S1x2176.size inb_S1x2176_S1x2176_0_0
abbrev rH : Rect S1x2048 := Rect.unit (s := S1x2048) ![0, 0] S1x2048.size inb_S1x2048_S1x2048_0_0
abbrev rT : Rect S1x256 := Rect.unit (s := S1x256) ![0, 0] S1x256.size inb_S1x256_S1x256_0_0
abbrev rWi : Rect S256x2176 := Rect.unit (s := S256x2176) ![0, 0] S256x2176.size inb_S256x2176_S256x2176_0_0
abbrev rWh : Rect S256x2048 := Rect.unit (s := S256x2048) ![0, 0] S256x2048.size inb_S256x2048_S256x2048_0_0

/-! ## What the body leaves in the output buffer -/

/-- The output buffer after the body, from the fifteen input buffers' contents: its one store, of the
    new hidden state on the point's slice, over the whole buffer. -/
def out (x0 : Vec F S1x2176 .f32) (x1 : Vec F S1x2048 .f32) (x2 : Vec F S1x256 .f32) (x3 : Vec F S256x2176 .f32) (x4 : Vec F S256x2176 .f32) (x5 : Vec F S256x2176 .f32) (x6 : Vec F S256x2048 .f32) (x7 : Vec F S256x2048 .f32) (x8 : Vec F S256x2048 .f32) (x9 : Vec F S1x256 .f32) (x10 : Vec F S1x256 .f32) (x11 : Vec F S1x256 .f32) (x12 : Vec F S1x256 .f32) (x13 : Vec F S1x256 .f32) (x14 : Vec F S1x256 .f32) : Vec F S1x256 .f32 :=
  View.canon [⟨rT, k0_pay1 (k0_pay3 (View.ld x1 rH)) (k0_pay4 (View.ld x2 rT)) (k0_pay5 (View.ld x0 rX) (View.ld x3 rWi) (View.ld x9 rT)) (k0_pay6 (View.ld x0 rX) (View.ld x4 rWi) (View.ld x10 rT)) (k0_pay7 (View.ld x0 rX) (View.ld x5 rWi) (View.ld x11 rT)) (k0_pay8 (View.ld x1 rH) (View.ld x6 rWh) (View.ld x12 rT)) (View.ld x7 rWh) (View.ld x13 rT) (View.ld x8 rWh) (View.ld x14 rT)⟩]

/-- The one store covers the buffer. -/
theorem cover_out (p0 : Vec F S1x256 .f32) (y : S1x256.Idx) :
    ∃ pc ∈ ([⟨rT, p0⟩] : List (View.Piece (Elt F) S1x256 .f32)), y ∈ pc.1.set :=
  View.cover_of_tiled [⟨rT, p0⟩] S1x256.size (by rfl) y

/-! ## The body's triple -/

set_option maxHeartbeats 4000000 in
/-- The body on whole staging memrefs, the inputs' at contents `xW` and the output's at anything, runs to the
    continuation holding the inputs' as they were and the output's at `out` of the inputs'. -/
theorem sound_kernel (c : Dev nD) (E : Set ℕ) (i : grid0.Coords) (arg1 : Memref sig .tc .vmem S1x2176 .f32) (harg1 : arg1.IsWhole) (arg2 : Memref sig .tc .vmem S1x2048 .f32) (harg2 : arg2.IsWhole) (arg3 : Memref sig .tc .vmem S1x256 .f32) (harg3 : arg3.IsWhole) (arg4 : Memref sig .tc .vmem S256x2176 .f32) (harg4 : arg4.IsWhole) (arg5 : Memref sig .tc .vmem S256x2176 .f32) (harg5 : arg5.IsWhole) (arg6 : Memref sig .tc .vmem S256x2176 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole)
    (x0 : Vec F S1x2176 .f32) (x1 : Vec F S1x2048 .f32) (x2 : Vec F S1x256 .f32) (x3 : Vec F S256x2176 .f32) (x4 : Vec F S256x2176 .f32) (x5 : Vec F S256x2176 .f32) (x6 : Vec F S256x2048 .f32) (x7 : Vec F S256x2048 .f32) (x8 : Vec F S256x2048 .f32) (x9 : Vec F S1x256 .f32) (x10 : Vec F S1x256 .f32) (x11 : Vec F S1x256 .f32) (x12 : Vec F S1x256 .f32) (x13 : Vec F S1x256 .f32) (x14 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out x0 x1 x2 x3 x4 x5 x6 x7 x8 x9 x10 x11 x12 x13 x14)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover_out _)

end Cert.KernelIdeal.Hand

end
-- ==== Proof.KiDat.lean ====
/-
  The pipeline's proof data for the GRU gate kernel, and the body obligation at every grid point.

  The grid has eight points; point t handles columns 256·t … 256·t + 255 of the hidden state.  Every input
  window's staging buffer holds, when the body runs at t, that window's block of its array as the region
  found it — fetched there, or (the two rows fetched once) left in place since the first point.  The
  output window's buffer is left at `out` of the fifteen blocks.  Five arrays are each read through
  two or three windows (the hidden row whole and by slice; each weight matrix and each bias row by its
  reset-, update- and candidate-gate blocks): such an array is held at the full share split among its
  windows, a half and a half, or a half and two quarters.
-/
import proofs.«178255_j28432683500169_1_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not, for any proof data
    whose array is the region-entry contents and whose body leaves the block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and the
    output's at `out` of the input blocks; the invariant the core's scoped buffers that are no staging buffer, untouched;
    nothing owed; an array read through several windows held at the full share split among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.scopedRest spec0 c
  q w := match w with
    | ⟨0, _⟩ => fullShare
    | ⟨1, _⟩ => fullShare.left
    | ⟨2, _⟩ => fullShare.right
    | ⟨3, _⟩ => fullShare.left
    | ⟨4, _⟩ => fullShare.right.left
    | ⟨5, _⟩ => fullShare.right.right
    | ⟨6, _⟩ => fullShare.left
    | ⟨7, _⟩ => fullShare.right.left
    | ⟨8, _⟩ => fullShare.right.right
    | ⟨9, _⟩ => fullShare.left
    | ⟨10, _⟩ => fullShare.right.left
    | ⟨11, _⟩ => fullShare.right.right
    | ⟨12, _⟩ => fullShare.left
    | ⟨13, _⟩ => fullShare.right.left
    | ⟨14, _⟩ => fullShare.right.right
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant
    and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiSplit.lean ====
/-
  The region's entry: the buffers behind the windows' arrays become the pipeline's arrays.

  Seven buffers stand behind the sixteen windows.  The GRU input row and the output row are each one
  window's array, held whole.  The hidden row is read through two windows, and each weight matrix and
  each bias row through three: its points-to at the full share is split, a half and a half, or a half
  and the two halves of the other half, one piece per window, each at the same contents.
-/
import proofs.«178255_j28432683500169_1_alg».proof.Proof.KiDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## For any proof data over these windows -/

/-- Every window's array is a whole buffer, so its element set is all of the buffer: the arrays are plain
    points-tos, one per window, at the windows' shares. -/
theorem arrays_pts_of {c : Dev nD} (dat : Dat τ (Elt F) Unit ℕ (UR sig nD τ) ℕ cfg0 c)
    (G : (w : Fin cfg0.W) → Buf (Elt F) ((cfg0.win w).arr.view.loc (c.tc : Thread nD τ))) :
    dat.arrays G = bigSep Finset.univ fun w => (((c.tc : Thread nD τ).loc (Pipeline.arrRef spec0 w)) ↦{dat.share w} G w : sProp 𝕄) := by
  unfold Dat.arrays
  exact bigSep_congr fun w _ => by rw [(arr_whole0 w).set_eq_univ]

/-- The sixteen windows' arrays are seven buffers. -/
theorem arrRefs_eq : (Finset.univ.image (Pipeline.arrRef spec0) : Finset (Ref sig .tc))
    = [main_v51, main_v0, main_arg8, main_arg9, main_v52, main_v53, main_v54].toFinset := by decide

/-- The buffers behind the arrays, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v51) ↦{fullShare} W main_v51) ∗ (((c.tc : Thread nD τ).loc main_v0) ↦{fullShare} W main_v0)
        ∗ (((c.tc : Thread nD τ).loc main_arg8) ↦{fullShare} W main_arg8) ∗ (((c.tc : Thread nD τ).loc main_arg9) ↦{fullShare} W main_arg9)
        ∗ (((c.tc : Thread nD τ).loc main_v52) ↦{fullShare} W main_v52) ∗ (((c.tc : Thread nD τ).loc main_v53) ↦{fullShare} W main_v53)
        ∗ (((c.tc : Thread nD τ).loc main_v54) ↦{fullShare} W main_v54)) := by
  unfold Pipeline.arrBufs
  rw [bigSep_eq_bigSepL_of_eq _ arrRefs_eq (by decide)]
  rfl

/-- The buffer behind each window's array. -/
theorem ref_0 : Pipeline.arrRef spec0 0 = main_v51 := rfl
theorem ref_1 : Pipeline.arrRef spec0 1 = main_v0 := rfl
theorem ref_2 : Pipeline.arrRef spec0 2 = main_v0 := rfl
theorem ref_3 : Pipeline.arrRef spec0 3 = main_arg8 := rfl
theorem ref_4 : Pipeline.arrRef spec0 4 = main_arg8 := rfl
theorem ref_5 : Pipeline.arrRef spec0 5 = main_arg8 := rfl
theorem ref_6 : Pipeline.arrRef spec0 6 = main_arg9 := rfl
theorem ref_7 : Pipeline.arrRef spec0 7 = main_arg9 := rfl
theorem ref_8 : Pipeline.arrRef spec0 8 = main_arg9 := rfl
theorem ref_9 : Pipeline.arrRef spec0 9 = main_v52 := rfl
theorem ref_10 : Pipeline.arrRef spec0 10 = main_v52 := rfl
theorem ref_11 : Pipeline.arrRef spec0 11 = main_v52 := rfl
theorem ref_12 : Pipeline.arrRef spec0 12 = main_v53 := rfl
theorem ref_13 : Pipeline.arrRef spec0 13 = main_v53 := rfl
theorem ref_14 : Pipeline.arrRef spec0 14 = main_v53 := rfl
theorem ref_15 : Pipeline.arrRef spec0 15 = main_v54 := rfl

/-- Window `w`'s array at the window's share, before any write-back. -/
abbrev arrPt {c : Dev nD} (dat : Dat τ (Elt F) Unit ℕ (UR sig nD τ) ℕ cfg0 c) (w : Fin 16) : sProp 𝕄 :=
  ((c.tc : Thread nD τ).loc (Pipeline.arrRef spec0 w)) ↦{dat.share w} dat.arrAt w 0

/-- The arrays before any write-back, window by window. -/
theorem arrays_chain {c : Dev nD} (dat : Dat τ (Elt F) Unit ℕ (UR sig nD τ) ℕ cfg0 c) :
    dat.arrays (dat.arrAt · 0) = iprop(arrPt dat 0 ∗ arrPt dat 1 ∗ arrPt dat 2 ∗ arrPt dat 3 ∗ arrPt dat 4 ∗ arrPt dat 5 ∗ arrPt dat 6 ∗ arrPt dat 7 ∗ arrPt dat 8 ∗ arrPt dat 9 ∗ arrPt dat 10 ∗ arrPt dat 11 ∗ arrPt dat 12 ∗ arrPt dat 13 ∗ arrPt dat 14 ∗ arrPt dat 15) :=
  (arrays_pts_of dat _).trans (bigSep_W0 _)

/-- One window's piece: buffer `b` at share `q` and the entry contents is window `w`'s array at its share before any
    write-back, when `b` is the buffer behind that array, `q` the window's share, and the data's array the entry contents. -/
theorem win_pt {c : Dev nD} (dat : Dat τ (Elt F) Unit ℕ (UR sig nD τ) ℕ cfg0 c)
    (hA : ∀ w, dat.A w = V m c (Pipeline.arrRef spec0 w)) (w : Fin 16) (b : Ref sig .tc) (q : PosShare TreeShare)
    (hb : Pipeline.arrRef spec0 w = b) (hq : dat.share w = q) :
    ((((c.tc : Thread nD τ).loc b) ↦{q} V m c b) : sProp 𝕄) ⊢ arrPt dat w := by
  subst hb hq
  unfold arrPt
  rw [show dat.arrAt w 0 = dat.A w from rfl, hA w]

/-- A full share is its left half and its right half, -/
theorem split2 {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1

/-- or its left half and the two halves of its right half. -/
theorem split3 {ℓ : Loc nD τ sig} (f : Buf (Elt F) ℓ) :
    (ℓ ↦{fullShare} f : sProp 𝕄) ⊢ iprop((ℓ ↦{fullShare.left} f) ∗ (ℓ ↦{fullShare.right.left} f) ∗ ℓ ↦{fullShare.right.right} f) :=
  (split2 f).trans (BIClass.sep_mono .rfl (pointsTo_share (PosShare.mem_left_op_right fullShare.right)).1)

/-- A buffer read through two windows, a half each. -/
theorem pair_pt {c : Dev nD} (dat : Dat τ (Elt F) Unit ℕ (UR sig nD τ) ℕ cfg0 c) (hA : ∀ w, dat.A w = V m c (Pipeline.arrRef spec0 w))
    (b : Ref sig .tc) (w₁ w₂ : Fin 16) (r₁ : Pipeline.arrRef spec0 w₁ = b) (r₂ : Pipeline.arrRef spec0 w₂ = b)
    (q₁ : dat.share w₁ = fullShare.left) (q₂ : dat.share w₂ = fullShare.right) :
    ((((c.tc : Thread nD τ).loc b) ↦{fullShare} V m c b) : sProp 𝕄) ⊢ iprop(arrPt dat w₁ ∗ arrPt dat w₂) :=
  (split2 _).trans (BIClass.sep_mono (win_pt m dat hA w₁ b _ r₁ q₁) (win_pt m dat hA w₂ b _ r₂ q₂))

/-- A buffer read through three windows, a half and two quarters. -/
theorem triple_pt {c : Dev nD} (dat : Dat τ (Elt F) Unit ℕ (UR sig nD τ) ℕ cfg0 c) (hA : ∀ w, dat.A w = V m c (Pipeline.arrRef spec0 w))
    (b : Ref sig .tc) (w₁ w₂ w₃ : Fin 16) (r₁ : Pipeline.arrRef spec0 w₁ = b) (r₂ : Pipeline.arrRef spec0 w₂ = b)
    (r₃ : Pipeline.arrRef spec0 w₃ = b) (q₁ : dat.share w₁ = fullShare.left) (q₂ : dat.share w₂ = fullShare.right.left)
    (q₃ : dat.share w₃ = fullShare.right.right) :
    ((((c.tc : Thread nD τ).loc b) ↦{fullShare} V m c b) : sProp 𝕄) ⊢ iprop(arrPt dat w₁ ∗ arrPt dat w₂ ∗ arrPt dat w₃) :=
  (split3 _).trans (BIClass.sep_mono (win_pt m dat hA w₁ b _ r₁ q₁)
    (BIClass.sep_mono (win_pt m dat hA w₂ b _ r₂ q₂) (win_pt m dat hA w₃ b _ r₃ q₃)))

/-- Two pieces ahead of the rest of a chain, -/
theorem sep_two {A R P Q R' : sProp 𝕄} (h : A ⊢ iprop(P ∗ Q)) (hr : R ⊢ R') : iprop(A ∗ R) ⊢ iprop(P ∗ Q ∗ R') :=
  (BIClass.sep_mono h hr).trans Laws.sep_assoc.1

/-- or three. -/
theorem sep_three {A R P Q S R' : sProp 𝕄} (h : A ⊢ iprop(P ∗ Q ∗ S)) (hr : R ⊢ R') : iprop(A ∗ R) ⊢ iprop(P ∗ Q ∗ S ∗ R') :=
  (BIClass.sep_mono h hr).trans (Laws.sep_assoc.1.trans (BIClass.sep_mono .rfl Laws.sep_assoc.1))

/-- The buffers behind the arrays, whole at the entry contents, are the arrays before any write-back, for any proof
    data whose arrays are the entry contents and whose windows hold these shares. -/
theorem hsplit_of {c : Dev nD} (dat : Dat τ (Elt F) Unit ℕ (UR sig nD τ) ℕ cfg0 c)
    (hA : ∀ w, dat.A w = V m c (Pipeline.arrRef spec0 w))
    (h0 : dat.share (0 : Fin 16) = fullShare) (h1 : dat.share (1 : Fin 16) = fullShare.left) (h2 : dat.share (2 : Fin 16) = fullShare.right)
    (h3 : dat.share (3 : Fin 16) = fullShare.left) (h4 : dat.share (4 : Fin 16) = fullShare.right.left) (h5 : dat.share (5 : Fin 16) = fullShare.right.right)
    (h6 : dat.share (6 : Fin 16) = fullShare.left) (h7 : dat.share (7 : Fin 16) = fullShare.right.left) (h8 : dat.share (8 : Fin 16) = fullShare.right.right)
    (h9 : dat.share (9 : Fin 16) = fullShare.left) (h10 : dat.share (10 : Fin 16) = fullShare.right.left) (h11 : dat.share (11 : Fin 16) = fullShare.right.right)
    (h12 : dat.share (12 : Fin 16) = fullShare.left) (h13 : dat.share (13 : Fin 16) = fullShare.right.left) (h14 : dat.share (14 : Fin 16) = fullShare.right.right)
    (h15 : dat.share (15 : Fin 16) = fullShare) :
    (Pipeline.arrBufs spec0 c (V m c) : sProp 𝕄) ⊢ dat.arrays (dat.arrAt · 0) := by
  rw [arrays_chain, arrBufs_eq]
  exact BIClass.sep_mono (win_pt m dat hA 0 main_v51 _ ref_0 h0)
    (sep_two (pair_pt m dat hA main_v0 1 2 ref_1 ref_2 h1 h2)
      (sep_three (triple_pt m dat hA main_arg8 3 4 5 ref_3 ref_4 ref_5 h3 h4 h5)
        (sep_three (triple_pt m dat hA main_arg9 6 7 8 ref_6 ref_7 ref_8 h6 h7 h8)
          (sep_three (triple_pt m dat hA main_v52 9 10 11 ref_9 ref_10 ref_11 h9 h10 h11)
            (sep_three (triple_pt m dat hA main_v53 12 13 14 ref_12 ref_13 ref_14 h12 h13 h14)
              (win_pt m dat hA 15 main_v54 _ ref_15 h15))))))

/-! ## For this kernel's proof data -/

/-- The share each window holds its array at: an input's is the data's own, the output's is full. -/
theorem share_0 (c : Dev nD) : (dats m 0 c).share (0 : Fin 16) = fullShare := by unfold Dat.share; rfl
theorem share_1 (c : Dev nD) : (dats m 0 c).share (1 : Fin 16) = fullShare.left := by unfold Dat.share; rfl
theorem share_2 (c : Dev nD) : (dats m 0 c).share (2 : Fin 16) = fullShare.right := by unfold Dat.share; rfl
theorem share_3 (c : Dev nD) : (dats m 0 c).share (3 : Fin 16) = fullShare.left := by unfold Dat.share; rfl
theorem share_4 (c : Dev nD) : (dats m 0 c).share (4 : Fin 16) = fullShare.right.left := by unfold Dat.share; rfl
theorem share_5 (c : Dev nD) : (dats m 0 c).share (5 : Fin 16) = fullShare.right.right := by unfold Dat.share; rfl
theorem share_6 (c : Dev nD) : (dats m 0 c).share (6 : Fin 16) = fullShare.left := by unfold Dat.share; rfl
theorem share_7 (c : Dev nD) : (dats m 0 c).share (7 : Fin 16) = fullShare.right.left := by unfold Dat.share; rfl
theorem share_8 (c : Dev nD) : (dats m 0 c).share (8 : Fin 16) = fullShare.right.right := by unfold Dat.share; rfl
theorem share_9 (c : Dev nD) : (dats m 0 c).share (9 : Fin 16) = fullShare.left := by unfold Dat.share; rfl
theorem share_10 (c : Dev nD) : (dats m 0 c).share (10 : Fin 16) = fullShare.right.left := by unfold Dat.share; rfl
theorem share_11 (c : Dev nD) : (dats m 0 c).share (11 : Fin 16) = fullShare.right.right := by unfold Dat.share; rfl
theorem share_12 (c : Dev nD) : (dats m 0 c).share (12 : Fin 16) = fullShare.left := by unfold Dat.share; rfl
theorem share_13 (c : Dev nD) : (dats m 0 c).share (13 : Fin 16) = fullShare.right.left := by unfold Dat.share; rfl
theorem share_14 (c : Dev nD) : (dats m 0 c).share (14 : Fin 16) = fullShare.right.right := by unfold Dat.share; rfl
theorem share_15 (c : Dev nD) : (dats m 0 c).share (15 : Fin 16) = fullShare := by unfold Dat.share; rfl

/-- The proof data's arrays, each window's array a whole buffer: plain points-tos at the windows' shares. -/
theorem arrays_pts (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) :=
  arrays_pts_of (dats m 0 c) G

/-- At the region's entry the buffers behind the arrays, whole at the entry contents, are the proof data's arrays
    at their shares. -/
theorem hsplit (c : Dev nD) :
    (Pipeline.arrBufs spec0 c (V m c) : sProp 𝕄) ⊢ (dats m 0 c).arrays ((dats m 0 c).arrAt · 0) :=
  hsplit_of m (dats m 0 c) (A_eq m c) (share_0 m c) (share_1 m c) (share_2 m c) (share_3 m c) (share_4 m c) (share_5 m c)
    (share_6 m c) (share_7 m c) (share_8 m c) (share_9 m c) (share_10 m c) (share_11 m c) (share_12 m c) (share_13 m c)
    (share_14 m c) (share_15 m c)

end Cert.KernelIdeal.Hand

end
-- ==== Proof.KiTail.lean ====
/-
  The five host operations after the region, run from the region's exit.

  They read the kernel's output row (the new hidden state), the decoder's weight and bias, and write four
  fresh buffers; they touch no array that several windows share.  So they run holding only the output
  row's array, whole, and the buffers that bypass the region, the other windows' arrays set aside at
  their shares; afterwards the bypassing buffers hold the operations' fold over the exit contents.
-/
import proofs.«178255_j28432683500169_1_alg».proof.Proof.KiDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents after the operations that follow the region: their fold over the exit contents,
    the windows' arrays as the write-backs left them and every other buffer as the region found it. -/
abbrev Wfin (c : Dev nD) (b : Ref sig .tc) : Buf (Elt F) ((c : Thread nD τ).loc b) :=
  Pipeline.afterTail₀ cfgs (dats m) 0 (V0 m) [hostOps1] c b

/-- The buffers the operations after the region run within: the output row and the buffers that bypass the region. -/
def tailS : Finset (DevRef τ sig) :=
  (insert main_v54 (Pipeline.restRefs sig spec0)).map ⟨Proc.devRef (sig := sig) .tc, Proc.devRef_injective _⟩

/-- The output row is a window's array, so no bypassing buffer. -/
theorem v54_not_rest : main_v54 ∉ Pipeline.restRefs sig spec0 := fun h =>
  (Finset.mem_sdiff.mp h).2 (Finset.mem_image.mpr ⟨(15 : Fin 16), Finset.mem_univ _, rfl⟩)

/-- The output row, or an unscoped reference that is no window's array, is among them. -/
theorem mem_tailS_of (b : Ref sig .tc)
    (h : b = main_v54 ∨ (b.isScoped = false ∧ ∀ w, (spec0 w).arr.view.ref ≠ b)) : Proc.devRef (τ := τ) .tc b ∈ tailS := by
  unfold tailS
  refine Finset.mem_map.mpr ⟨b, ?_, rfl⟩
  rcases h with rfl | ⟨hs, ha⟩
  · exact Finset.mem_insert_self _ _
  · exact Finset.mem_insert_of_mem (Pipeline.mem_restRefs_of b hs ha)

/-- Held over that set: the output row whole, and the bypassing buffers. -/
theorem held_tailS (c : Dev nD) (Wv : Valuation τ sig (Elt F)) :
    (StableHlo.held (c.tc : Thread nD τ) tailS Wv : sProp 𝕄)
      = iprop((((c.tc : Thread nD τ).loc main_v54) ↦{fullShare} Wv (Proc.devRef .tc main_v54))
          ∗ Pipeline.unscopedRest spec0 c (fun b => Wv (Proc.devRef .tc b))) := by
  unfold StableHlo.held tailS Pipeline.unscopedRest
  rw [bigSep_map, bigSep_insert v54_not_rest]
  rfl

/-- Each of the five operations touches only the output row and bypassing buffers. -/
theorem hostOps1_within : ∀ ops ∈ [(hostOps1 : List (HloOp τ sig (Elt F)))], ∀ op ∈ ops, op.bufs ⊆ tailS := by
  intro ops hops op hop b hb
  obtain rfl : ops = hostOps1 := List.mem_singleton.mp hops
  simp only [hostOps1, List.mem_cons, List.not_mem_nil, or_false] at hop
  rcases hop with rfl | rfl | rfl | rfl | rfl
  all_goals
    simp only [StableHlo.unary_bufs, StableHlo.binary_bufs, Finset.mem_insert, Finset.mem_singleton] at hb
    rcases hb with rfl | rfl | rfl <;> exact mem_tailS_of _ (by decide)

/-- None of the five operations writes the output row. -/
theorem hostOps1_keep : ∀ op ∈ List.flatten [(hostOps1 : List (HloOp τ sig (Elt F)))], Proc.devRef .tc main_v54 ∉ op.writes :=
  List.forall_iff_forall_mem.mp (by
    simp only [hostOps1, List.flatten_cons, List.flatten_nil, List.append_nil, List.cons_append,
      List.nil_append, List.Forall, StableHlo.unary_writes, StableHlo.binary_writes, Finset.mem_singleton]
    repeat' apply And.intro
    all_goals exact StableHlo.devRef_ne_of_ne (by decide))

/-- Window 15 is the only window whose array is the output row. -/
theorem arr_v54_only : ∀ w : Fin 16, Pipeline.arrRef spec0 w = main_v54 → w = 15 := by decide

/-- The exit contents at the output row's array are what the write-backs left there. -/
theorem exit_v54 (c : Dev nD) :
    Pipeline.withArrays spec0 c (V0 m c) (fun w => (dats m 0 c).arrAt w cfg0.N) (Proc.devRef .tc main_v54)
      = (dats m 0 c).arrAt 15 cfg0.N := by
  unfold Pipeline.withArrays
  have h : ∃ w', Proc.devRef .tc (Pipeline.arrRef spec0 w') = Proc.devRef (τ := τ) .tc main_v54 := ⟨15, rfl⟩
  rw [dif_pos h]
  suffices ∀ (w' : Fin 16) (e : Proc.devRef .tc (Pipeline.arrRef spec0 w') = Proc.devRef (τ := τ) .tc main_v54),
      cast (congrArg (fun b' : DevRef τ sig => b'.ty.Contents (Elt F)) e) ((dats m 0 c).arrAt w' cfg0.N)
        = (dats m 0 c).arrAt 15 cfg0.N from this _ h.choose_spec
  intro w' e
  obtain rfl : w' = 15 := arr_v54_only w' (Proc.devRef_injective _ e)
  rfl

/-- The output window's array is held at the full share. -/
theorem share_out (c : Dev nD) : (dats m 0 c).share 15 = fullShare := by
  unfold Dat.share
  exact if_pos rfl

/-- The proof data's arrays: the output row's, whole at the full share, and the other fifteen windows' at their shares. -/
theorem arrays_out (c : Dev nD) (G : (w : Fin cfg0.W) → Buf (Elt F) ((cfg0.win w).arr.view.loc (c.tc : Thread nD τ))) :
    (dats m 0 c).arrays G
      = iprop((((c.tc : Thread nD τ).loc main_v54) ↦{fullShare} G 15)
          ∗ bigSep (Finset.univ.erase (15 : Fin cfg0.W)) fun w =>
              ((cfg0.win w).arr.view.loc (c.tc : Thread nD τ) ↦[(cfg0.win w).arr.view.set]{(dats m 0 c).share w} G w : sProp 𝕄)) := by
  have h15 : ((cfg0.win 15).arr.view.loc (c.tc : Thread nD τ) ↦[(cfg0.win 15).arr.view.set]{(dats m 0 c).share 15} G 15 : sProp 𝕄)
      = (((c.tc : Thread nD τ).loc main_v54) ↦{fullShare} G 15) := by
    rw [(arr_whole0 15).set_eq_univ, share_out]
  unfold Dat.arrays
  rw [bigSep_erase (Finset.mem_univ (15 : Fin cfg0.W)), h15]
  rfl

/-- `Wfin` read at a reference: the operations folded over the exit contents. -/
theorem Wfin_eq (c : Dev nD) (b : Ref sig .tc) :
    Wfin m c b = StableHlo.after (List.flatten [hostOps1])
      (Pipeline.withArrays spec0 c (V0 m c) fun w => (dats m 0 c).arrAt w cfg0.N) (Proc.devRef .tc b) := rfl

/-- The exit contents at a bypassing buffer are the region-entry contents. -/
theorem rest_exit (c : Dev nD) :
    (Pipeline.unscopedRest spec0 c
        (fun b => Pipeline.withArrays spec0 c (V0 m c) (fun w => (dats m 0 c).arrAt w cfg0.N) (Proc.devRef .tc b)) : sProp 𝕄)
      = Pipeline.unscopedRest spec0 c (V m c) := by
  unfold Pipeline.unscopedRest
  exact bigSep_congr fun b hb => by
    dsimp only
    rw [Pipeline.withArrays_of_ne spec0 c (V0 m c) _ b fun w e =>
      (Finset.mem_sdiff.mp hb).2 (Finset.mem_image.mpr ⟨w, Finset.mem_univ _, e⟩)]

/-- The operations after the region, from the region's exit: they hand back the arrays as they were and the
    bypassing buffers at `Wfin`. -/
theorem htail (c : Dev nD) (Q' : PUnit → sProp 𝕄) :
    iprop((iprop((dats m 0 c).arrays ((dats m 0 c).arrAt · cfg0.N) ∗ Pipeline.unscopedRest spec0 c (Wfin m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain [StableHlo.seq hostOps1]) Q' := by
  classical
  -- what is held at the exit contents, and after the operations
  have hW : (StableHlo.held (c.tc : Thread nD τ) tailS
        (Pipeline.withArrays spec0 c (V0 m c) fun w => (dats m 0 c).arrAt w cfg0.N) : sProp 𝕄)
      = iprop((((c.tc : Thread nD τ).loc main_v54) ↦{fullShare} (dats m 0 c).arrAt 15 cfg0.N)
          ∗ Pipeline.unscopedRest spec0 c (V m c)) := by
    rw [held_tailS, exit_v54, rest_exit]
  have hW' : (StableHlo.held (c.tc : Thread nD τ) tailS
        (StableHlo.after (List.flatten [hostOps1])
          (Pipeline.withArrays spec0 c (V0 m c) fun w => (dats m 0 c).arrAt w cfg0.N)) : sProp 𝕄)
      = iprop((((c.tc : Thread nD τ).loc main_v54) ↦{fullShare} (dats m 0 c).arrAt 15 cfg0.N)
          ∗ Pipeline.unscopedRest spec0 c (Wfin m c)) := by
    rw [held_tailS, StableHlo.after_of_forall_not_mem _ _ hostOps1_keep, exit_v54,
      show Wfin m c = fun b => StableHlo.after (List.flatten [hostOps1])
        (Pipeline.withArrays spec0 c (V0 m c) fun w => (dats m 0 c).arrAt w cfg0.N) (Proc.devRef .tc b) from funext (Wfin_eq m c)]
  have hfresh : ∀ ops ∈ [(hostOps1 : List (HloOp τ sig (Elt F)))], ∀ op ∈ ops, op.fresh = ∅ := fun ops hops op hop => by
    obtain rfl : ops = hostOps1 := List.mem_singleton.mp hops
    exact List.forall_iff_forall_mem.mp hostOps1_fresh op hop
  have key := Pipeline.wp_seqs_then (Ix := Unit) (Name := ℕ) (U := UR sig nD τ) (Lvl := ℕ) pcfgs defs₀ Variants.none c tailS [] [hostOps1]
    hostOps1_within hfresh (Pipeline.withArrays spec0 c (V0 m c) fun w => (dats m 0 c).arrAt w cfg0.N) (K := Q')
  rw [List.map_cons, List.map_nil, List.append_nil, hW, hW'] at key
  rw [arrays_out, show (defs (F := F)) = Pipeline.defs pcfgs defs₀ from rfl]
  iintro ⟨Hk, Hb, ⟨H15, Hoth⟩, HZ⟩
  iapply key $$ [Hb H15 HZ]
  · isplitl [Hb]; · iexact Hb
    isplitl [H15]; · iexact H15
    iexact HZ
  iintro ⟨-, H15, HZ⟩
  rw [Pipeline.chain_nil, wp_pure]
  imodintro
  iapply Hk
  isplitl [H15 Hoth]
  · isplitl [H15]; · iexact H15
    iexact Hoth
  · iexact HZ

end Cert.KernelIdeal.Hand

end
-- ==== Proof.KiRun.lean ====
/-
  The run of the idealized kernel program's @main, and its frame.

  Every weakly fair execution from a memory with zero counters terminates; every window's array ends at
  what the write-backs made of it — an input's as the region found it, the output row's overwritten block
  by block by what the body left — and every buffer that bypasses the region ends at the later host
  operations' fold over the exit contents.  The launch is the library's for a kernel with no semaphore
  of its own whose input windows may share arrays: the entry splits each shared array among its windows
  (the entry lemma), the later operations run beside the set-aside arrays (the exit lemma), and the
  bypassing buffers are read back from the final state.  The frame follows: an argument array that is a
  window's array is an input's, never written; any other is written neither before nor after the region.
-/
import proofs.«178255_j28432683500169_1_alg».proof.Proof.KiSplit
import proofs.«178255_j28432683500169_1_alg».proof.Proof.KiTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- The run: the arrays at what the proof data computes, the bypassing buffers at `Wfin`. -/
theorem run_main : θ_run defs (onTc (τ := τ) (main (F := F))) ⟨m, fun _ => 0, ρ⟩ (Pipeline.FramePost cfgs (dats m) 0 (Wfin m)) := by
  classical
  exact Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main
    (fun _ => Pipeline.chain [StableHlo.seq hostOps1])
    (fun c => (body_obligation m c).loose)
    block_pos0 arr_whole0 stage_whole0 (fun _ _ => rfl)
    (u₀ := initOf (Pipeline.cells cfgs cellOf_inj) (Pipeline.launchToks cfgs cellOf_inj))
    (hu₀ := .rfl)
    (V := V m) (hmain := hmain m Variants.none)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Wfin m c))
    (hX := fun c => by
      rw [Pipeline.unscopedRestP_none]
      iintro H; isplitr; · iempintro
      iexact H)
    (hin := fun c => (show iprop((iprop(emp) : sProp 𝕄) ∗ _ ∗ Pipeline.scopedRest spec0 c) ⊢ Pipeline.scopedRest spec0 c from by
      iintro ⟨-, -, HR⟩; iexact HR))
    (hout := fun c => (show (Pipeline.scopedRest spec0 c : sProp 𝕄) ⊢ iprop(iprop(emp) ∗ Pipeline.scopedRest spec0 c) from by
      iintro HR; isplitr; · iempintro
      iexact HR))
    (htail := fun c Q' => htail m c Q')
    (QY := fun c s => ∀ b ∈ Pipeline.restRefs sig spec0, s.mem ((c.tc : Thread nD τ).loc b) = Wfin m c b)
    (hY := fun c s' => by
      iintro ⟨-, HU, HSI⟩
      unfold Pipeline.unscopedRest
      imodintro
      iapply (pointsTo_read_all (Pipeline.restRefs sig spec0) (fun b => (c.tc : Thread nD τ).loc b) (Wfin m c) s')
      isplitl [HU] <;> iassumption)
    (hQ := fun s h c => ⟨(h c).1, (h c).2.2⟩)

/-- None of the operations after the region writes argument 0, and it is no window's array: it ends as launched. -/
theorem W_main_arg0 (c : Dev nD) : Wfin m c main_arg0 = m ((c : Thread nD τ).loc main_arg0) := by
  unfold Wfin Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- None of the operations after the region writes argument 1, and it is no window's array: it ends as launched. -/
theorem W_main_arg1 (c : Dev nD) : Wfin m c main_arg1 = m ((c : Thread nD τ).loc main_arg1) := by
  unfold Wfin Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the operations after the region writes argument 2, and it is no window's array: it ends as launched. -/
theorem W_main_arg2 (c : Dev nD) : Wfin m c main_arg2 = m ((c : Thread nD τ).loc main_arg2) := by
  unfold Wfin Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the operations after the region writes argument 3, and it is no window's array: it ends as launched. -/
theorem W_main_arg3 (c : Dev nD) : Wfin m c main_arg3 = m ((c : Thread nD τ).loc main_arg3) := by
  unfold Wfin Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the operations after the region writes argument 4, and it is no window's array: it ends as launched. -/
theorem W_main_arg4 (c : Dev nD) : Wfin m c main_arg4 = m ((c : Thread nD τ).loc main_arg4) := by
  unfold Wfin Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- None of the operations after the region writes argument 5, and it is no window's array: it ends as launched. -/
theorem W_main_arg5 (c : Dev nD) : Wfin m c main_arg5 = m ((c : Thread nD τ).loc main_arg5) := by
  unfold Wfin Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- None of the operations after the region writes argument 6, and it is no window's array: it ends as launched. -/
theorem W_main_arg6 (c : Dev nD) : Wfin m c main_arg6 = m ((c : Thread nD τ).loc main_arg6) := by
  unfold Wfin Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- None of the operations after the region writes argument 7, and it is no window's array: it ends as launched. -/
theorem W_main_arg7 (c : Dev nD) : Wfin m c main_arg7 = m ((c : Thread nD τ).loc main_arg7) := by
  unfold Wfin Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- None of the operations after the region writes argument 10, and it is no window's array: it ends as launched. -/
theorem W_main_arg10 (c : Dev nD) : Wfin m c main_arg10 = m ((c : Thread nD τ).loc main_arg10) := by
  unfold Wfin Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- None of the operations after the region writes argument 11, and it is no window's array: it ends as launched. -/
theorem W_main_arg11 (c : Dev nD) : Wfin m c main_arg11 = m ((c : Thread nD τ).loc main_arg11) := by
  unfold Wfin Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- None of the operations after the region writes argument 12, and it is no window's array: it ends as launched. -/
theorem W_main_arg12 (c : Dev nD) : Wfin m c main_arg12 = m ((c : Thread nD τ).loc main_arg12) := by
  unfold Wfin Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- None of the operations after the region writes argument 13, and it is no window's array: it ends as launched. -/
theorem W_main_arg13 (c : Dev nD) : Wfin m c main_arg13 = m ((c : Thread nD τ).loc main_arg13) := by
  unfold Wfin Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- From the run's post: the fourteen argument arrays are as launched. -/
theorem args_kept (r : PUnit × MemSt nD τ sig (Elt F)) (h : Pipeline.FramePost cfgs (dats m) 0 (Wfin m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  have hr := fun b hb => (h c).2 b hb
  have ha := (h c).1
  refine ⟨(hr main_arg0 (Pipeline.mem_restRefs_of main_arg0 (by decide) (by decide))).trans (W_main_arg0 m c), (hr main_arg1 (Pipeline.mem_restRefs_of main_arg1 (by decide) (by decide))).trans (W_main_arg1 m c), (hr main_arg2 (Pipeline.mem_restRefs_of main_arg2 (by decide) (by decide))).trans (W_main_arg2 m c), (hr main_arg3 (Pipeline.mem_restRefs_of main_arg3 (by decide) (by decide))).trans (W_main_arg3 m c), (hr main_arg4 (Pipeline.mem_restRefs_of main_arg4 (by decide) (by decide))).trans (W_main_arg4 m c), (hr main_arg5 (Pipeline.mem_restRefs_of main_arg5 (by decide) (by decide))).trans (W_main_arg5 m c), (hr main_arg6 (Pipeline.mem_restRefs_of main_arg6 (by decide) (by decide))).trans (W_main_arg6 m c), (hr main_arg7 (Pipeline.mem_restRefs_of main_arg7 (by decide) (by decide))).trans (W_main_arg7 m c), ?_, ?_, (hr main_arg10 (Pipeline.mem_restRefs_of main_arg10 (by decide) (by decide))).trans (W_main_arg10 m c), (hr main_arg11 (Pipeline.mem_restRefs_of main_arg11 (by decide) (by decide))).trans (W_main_arg11 m c), (hr main_arg12 (Pipeline.mem_restRefs_of main_arg12 (by decide) (by decide))).trans (W_main_arg12 m c), (hr main_arg13 (Pipeline.mem_restRefs_of main_arg13 (by decide) (by decide))).trans (W_main_arg13 m c)⟩
  · exact (ha 3).trans (((dats m 0 c).arrAt_in 3 rfl _).trans ((A_eq m c 3).trans (V_main_arg8 m c)))
  · exact (ha 6).trans (((dats m 0 c).arrAt_in 6 rfl _).trans ((A_eq m c 6).trans (V_main_arg9 m c)))

/-- THE FRAME: every execution terminates, faults nowhere, and leaves the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m r h c) (run_main m ρ)

end Cert.KernelIdeal.Hand

end
-- ==== Proof.KiOut.lean ====
/-
  The program's three results, read after the operations that follow the region.

  The decoder's output is the new hidden row times the transposed decoder weight plus the broadcast
  decoder bias; the second result is the new hidden row given back its leading axis; the third, the
  updated stack, was computed before the region and is touched by nothing after it.  The new hidden row
  is the output window's array as the eight write-backs left it.
-/
import proofs.«178255_j28432683500169_1_alg».proof.Proof.KiTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The decoder: the hidden row times the transposed weight, plus the broadcast bias. -/
def decode (hn : (⟨S1x2048, .f32⟩ : BufTy).Contents (Elt F)) (w : (⟨S45x2048, .f32⟩ : BufTy).Contents (Elt F))
    (b : (⟨S45, .f32⟩ : BufTy).Contents (Elt F)) : (⟨S1x45, .f32⟩ : BufTy).Contents (Elt F) :=
  addf (Host.dotGeneral dot_S1x2048_S2048x45_S1x45_1_0_0_1_n_n none hn (transpose S2048x45 [1, 0] w transposes_S45x2048_S2048x45_1_0))
    (broadcastInDim S1x45 ![1] bcast_S45_S1x45_1 b)

/-- The exit contents at a buffer that is no window's array are the entry contents. -/
theorem exit_arg12 (c : Dev nD) :
    Pipeline.withArrays spec0 c (V0 m c) (fun w => (dats m 0 c).arrAt w cfg0.N) (Proc.devRef .tc main_arg12) = m ((c : Thread nD τ).loc main_arg12) :=
  (Pipeline.withArrays_of_ne _ c (V0 m c) _ main_arg12 (by exact (by decide : ∀ w, Pipeline.arrRef spec0 w ≠ main_arg12))).trans (V_main_arg12 m c)
theorem exit_arg13 (c : Dev nD) :
    Pipeline.withArrays spec0 c (V0 m c) (fun w => (dats m 0 c).arrAt w cfg0.N) (Proc.devRef .tc main_arg13) = m ((c : Thread nD τ).loc main_arg13) :=
  (Pipeline.withArrays_of_ne _ c (V0 m c) _ main_arg13 (by exact (by decide : ∀ w, Pipeline.arrRef spec0 w ≠ main_arg13))).trans (V_main_arg13 m c)

/-- The decoder's output. -/
theorem Wfin_v58 (c : Dev nD) : Wfin m c main_v58
    = decode ((dats m 0 c).arrAt 15 cfg0.N) (m ((c : Thread nD τ).loc main_arg12)) (m ((c : Thread nD τ).loc main_arg13)) := by
  unfold Wfin Pipeline.afterTail₀
  show StableHlo.after hostOps1 _ (Proc.devRef .tc main_v58) = _
  after_results
  rw [exit_v54, exit_arg12, exit_arg13]
  rfl

/-- The new hidden state with its leading axis. -/
theorem Wfin_v59 (c : Dev nD) : Wfin m c main_v59
    = broadcastInDim S1x1x2048 ![1, 2] bcast_S1x2048_S1x1x2048_1_2 ((dats m 0 c).arrAt 15 cfg0.N) := by
  unfold Wfin Pipeline.afterTail₀
  show StableHlo.after hostOps1 _ (Proc.devRef .tc main_v59) = _
  after_results
  rw [exit_v54]

/-- The updated stack: no later operation writes it, and it is no window's array. -/
theorem Wfin_v41 (c : Dev nD) : Wfin m c main_v41 = V m c main_v41 := by
  unfold Wfin Pipeline.afterTail₀
  rw [StableHlo.after_of_forall_not_mem (b := Proc.devRef .tc main_v41) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v41 (by exact (by decide : ∀ w, Pipeline.arrRef spec0 w ≠ main_v41))]

end Cert.KernelIdeal.Hand

end
-- ==== Proof.GruSpec.lean ====
/-
  The GRU cell's new hidden state as one function of its operands, over the extended reals.

  The operands: the input row x (1 × 2176: the embedded token followed by the stack's top row), the
  hidden row h (1 × 2048), the gate-stacked weights W_ih (6144 × 2176) and W_hh (6144 × 2048) — rows
  0…2047 the reset gate's, 2048…4095 the update gate's, 4096…6143 the candidate's — and the two bias
  rows (1 × 6144), stacked the same way.  For gate g and column j, with row(g, j) = 2048·g + j,

      a_g(j) = Σ_k x(k) · W_ih(row(g, j), k) + b_ih(row(g, j)),
      c_g(j) = Σ_k h(k) · W_hh(row(g, j), k) + b_hh(row(g, j)),

  r = σ(a_0 + c_0),  z = σ(a_1 + c_1),  n = tanh(a_2 + r · c_2),  h'(j) = (1 − z) · n + z · h(j),

  σ the logistic function.  The one, `one`, is kept as the float word both programs spell it with.
-/
import Idealize.ShloMosaic.PureOps.Ideal
import Idealize.ShloMosaic.Lib.ValueIdx

noncomputable section

open scoped BigOperators

namespace Cert.GruSpec

open Idealize.ShloMosaic Idealize.ShloMosaic.ValueIdx

abbrev Sx : Shape := ⟨2, ![1, 2176]⟩
abbrev Sh : Shape := ⟨2, ![1, 2048]⟩
abbrev Swi : Shape := ⟨2, ![6144, 2176]⟩
abbrev Swh : Shape := ⟨2, ![6144, 2048]⟩
abbrev Sb : Shape := ⟨2, ![1, 6144]⟩

/-- The float word 1.0, read at the ideal instance. -/
abbrev one : EReal := Ideal.ofBits .f32 0x3F800000#32

/-- Row `2048·g + j` of a gate-stacked operand: gate `g`'s row for column `j`. -/
def grow (g : Fin 3) (j : Fin 2048) : Fin 6144 := ⟨g.val * 2048 + j.val, by have := g.isLt; have := j.isLt; omega⟩

theorem grow_val (g : Fin 3) (j : Fin 2048) : (grow g j).val = g.val * 2048 + j.val := rfl

/-- The input side's preactivation of gate `g` at column `j`. -/
def preIn (x : Sx.Idx → EReal) (wi : Swi.Idx → EReal) (bi : Sb.Idx → EReal) (g : Fin 3) (j : Fin 2048) : EReal :=
  (∑ k : Fin 2176, x (ix2 (0 : Fin 1) k) * wi (ix2 (grow g j) k)) + bi (ix2 (0 : Fin 1) (grow g j))

/-- The hidden side's preactivation of gate `g` at column `j`. -/
def preHid (h : Sh.Idx → EReal) (wh : Swh.Idx → EReal) (bh : Sb.Idx → EReal) (g : Fin 3) (j : Fin 2048) : EReal :=
  (∑ k : Fin 2048, h (ix2 (0 : Fin 1) k) * wh (ix2 (grow g j) k)) + bh (ix2 (0 : Fin 1) (grow g j))

/-- The new hidden state at column `j`. -/
def hnewAt (x : Sx.Idx → EReal) (h : Sh.Idx → EReal) (wi : Swi.Idx → EReal) (wh : Swh.Idx → EReal)
    (bi bh : Sb.Idx → EReal) (j : Fin 2048) : EReal :=
  (one - Ideal.logistic (preIn x wi bi 1 j + preHid h wh bh 1 j))
      * Ideal.tanh (preIn x wi bi 2 j + Ideal.logistic (preIn x wi bi 0 j + preHid h wh bh 0 j) * preHid h wh bh 2 j)
    + Ideal.logistic (preIn x wi bi 1 j + preHid h wh bh 1 j) * h (ix2 (0 : Fin 1) j)

/-- The new hidden state as a 1 × 2048 array. -/
def hnew (x : Sx.Idx → EReal) (h : Sh.Idx → EReal) (wi : Swi.Idx → EReal) (wh : Swh.Idx → EReal)
    (bi bh : Sb.Idx → EReal) : Sh.Idx → EReal :=
  fun i => hnewAt x h wi wh bi bh (i 1)

theorem hnew_apply (x : Sx.Idx → EReal) (h : Sh.Idx → EReal) (wi : Swi.Idx → EReal) (wh : Swh.Idx → EReal)
    (bi bh : Sb.Idx → EReal) (p : Fin 1) (j : Fin 2048) :
    hnew x h wi wh bi bh (ix2 p j) = hnewAt x h wi wh bi bh j := rfl

end Cert.GruSpec

end
-- ==== Proof.KiValue.lean ====
/-
  What the kernel region leaves in the new-hidden-state row, at the ideal instance.

  Point t of the grid writes back columns 256·t … 256·t + 255.  At column q of that block the body's
  stored value is the GRU cell's new hidden state at column j = 256·t + q: each of its six matrix
  products is a sum over the contracted axis of the input (or hidden) row against row 256·t + q of the
  gate's 256-row block, which is row 2048·g + j of the stacked matrix; the changes of float format are
  the identity; the bias pieces are the stacked bias rows at 2048·g + j.  The eight blocks cover the
  row, so the array ends as the specification's function of the six operand arrays.
-/
import proofs.«178255_j28432683500169_1_alg».proof.Proof.KiDat
import proofs.«178255_j28432683500169_1_alg».proof.Proof.GruSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## A matrix product into the zero accumulator, at an index -/

/-- The product of a 1 × 2176 row with the transpose of a 256 × 2176 block, into the zero accumulator, at column q:
    the sum over the contracted coordinate of row entry times the block's row-q entry. -/
theorem mmx_apply (x : FVec Ideal S1x2176 .bf16) (W : FVec Ideal S256x2176 .bf16) (p : Fin 1) (q : Fin 256) :
    matmul dot_S1x2176_S256x2176_S1x256_1_1_0_0_n_n none x W (constant S1x256 .f32 0x00000000#32) (ix2 p q)
      = ∑ k : Fin 2176, x (ix2 p k) * W (ix2 q k) := by
  show FloatOps.matmul dot_S1x2176_S256x2176_S1x256_1_1_0_0_n_n none x W (constant S1x256 .f32 0x00000000#32) (ix2 p q) = _
  rw [Ideal.matmul_constant_zero_apply,
    ← Equiv.sum_comp (contrEquiv1 dot_S1x2176_S256x2176_S1x256_1_1_0_0_n_n 2176 rfl rfl).symm]
  refine Finset.sum_congr rfl fun k _ => ?_
  have ck := contrEquiv1_symm_val dot_S1x2176_S256x2176_S1x256_1_1_0_0_n_n 2176 rfl rfl k
  have hl : dot_S1x2176_S256x2176_S1x256_1_1_0_0_n_n.lhsIdx (ix2 p q)
      ((contrEquiv1 dot_S1x2176_S256x2176_S1x256_1_1_0_0_n_n 2176 rfl rfl).symm k) = ix2 p k := by
    funext ax; apply Fin.ext
    match ax with
    | ⟨0, _⟩ => simp [DotDims.lhsIdx, dot_S1x2176_S256x2176_S1x256_1_1_0_0_n_n]
    | ⟨1, _⟩ => simp [DotDims.lhsIdx, dot_S1x2176_S256x2176_S1x256_1_1_0_0_n_n]; exact ck
  have hr : dot_S1x2176_S256x2176_S1x256_1_1_0_0_n_n.rhsIdx (ix2 p q)
      ((contrEquiv1 dot_S1x2176_S256x2176_S1x256_1_1_0_0_n_n 2176 rfl rfl).symm k) = ix2 q k := by
    funext ax; apply Fin.ext
    match ax with
    | ⟨0, _⟩ => simp [DotDims.rhsIdx, dot_S1x2176_S256x2176_S1x256_1_1_0_0_n_n]; rfl
    | ⟨1, _⟩ => simp [DotDims.rhsIdx, dot_S1x2176_S256x2176_S1x256_1_1_0_0_n_n]; exact ck
  rw [hl, hr]

/-- The product of a 1 × 2048 row with the transpose of a 256 × 2048 block, into the zero accumulator, at column q:
    the sum over the contracted coordinate of row entry times the block's row-q entry. -/
theorem mmh_apply (x : FVec Ideal S1x2048 .bf16) (W : FVec Ideal S256x2048 .bf16) (p : Fin 1) (q : Fin 256) :
    matmul dot_S1x2048_S256x2048_S1x256_1_1_0_0_n_n none x W (constant S1x256 .f32 0x00000000#32) (ix2 p q)
      = ∑ k : Fin 2048, x (ix2 p k) * W (ix2 q k) := by
  show FloatOps.matmul dot_S1x2048_S256x2048_S1x256_1_1_0_0_n_n none x W (constant S1x256 .f32 0x00000000#32) (ix2 p q) = _
  rw [Ideal.matmul_constant_zero_apply,
    ← Equiv.sum_comp (contrEquiv1 dot_S1x2048_S256x2048_S1x256_1_1_0_0_n_n 2048 rfl rfl).symm]
  refine Finset.sum_congr rfl fun k _ => ?_
  have ck := contrEquiv1_symm_val dot_S1x2048_S256x2048_S1x256_1_1_0_0_n_n 2048 rfl rfl k
  have hl : dot_S1x2048_S256x2048_S1x256_1_1_0_0_n_n.lhsIdx (ix2 p q)
      ((contrEquiv1 dot_S1x2048_S256x2048_S1x256_1_1_0_0_n_n 2048 rfl rfl).symm k) = ix2 p k := by
    funext ax; apply Fin.ext
    match ax with
    | ⟨0, _⟩ => simp [DotDims.lhsIdx, dot_S1x2048_S256x2048_S1x256_1_1_0_0_n_n]
    | ⟨1, _⟩ => simp [DotDims.lhsIdx, dot_S1x2048_S256x2048_S1x256_1_1_0_0_n_n]; exact ck
  have hr : dot_S1x2048_S256x2048_S1x256_1_1_0_0_n_n.rhsIdx (ix2 p q)
      ((contrEquiv1 dot_S1x2048_S256x2048_S1x256_1_1_0_0_n_n 2048 rfl rfl).symm k) = ix2 q k := by
    funext ax; apply Fin.ext
    match ax with
    | ⟨0, _⟩ => simp [DotDims.rhsIdx, dot_S1x2048_S256x2048_S1x256_1_1_0_0_n_n]; rfl
    | ⟨1, _⟩ => simp [DotDims.rhsIdx, dot_S1x2048_S256x2048_S1x256_1_1_0_0_n_n]; exact ck
  rw [hl, hr]

/-! ## The body's arithmetic, term by term, at an index -/

/-- An input-side gate piece at column q: the input row against row q of the gate's block, plus the bias piece. -/
theorem pay5_apply (x : Vec Ideal S1x2176 .f32) (W : Vec Ideal S256x2176 .f32) (b : Vec Ideal S1x256 .f32) (p : Fin 1) (q : Fin 256) :
    k0_pay5 x W b (ix2 p q) = (∑ k : Fin 2176, x (ix2 p k) * W (ix2 q k)) + b (ix2 p q) := by
  unfold k0_pay5 k0_pay2
  rw [shapeCast_self, shapeCast_self]
  exact congrArg (· + b (ix2 p q)) (mmx_apply (truncf .bf16 x bitsLt_bf16_f32) (truncf .bf16 W bitsLt_bf16_f32) p q)

theorem pay6_apply (x : Vec Ideal S1x2176 .f32) (W : Vec Ideal S256x2176 .f32) (b : Vec Ideal S1x256 .f32) (p : Fin 1) (q : Fin 256) :
    k0_pay6 x W b (ix2 p q) = (∑ k : Fin 2176, x (ix2 p k) * W (ix2 q k)) + b (ix2 p q) := by
  unfold k0_pay6 k0_pay2
  rw [shapeCast_self, shapeCast_self]
  exact congrArg (· + b (ix2 p q)) (mmx_apply (truncf .bf16 x bitsLt_bf16_f32) (truncf .bf16 W bitsLt_bf16_f32) p q)

theorem pay7_apply (x : Vec Ideal S1x2176 .f32) (W : Vec Ideal S256x2176 .f32) (b : Vec Ideal S1x256 .f32) (p : Fin 1) (q : Fin 256) :
    k0_pay7 x W b (ix2 p q) = (∑ k : Fin 2176, x (ix2 p k) * W (ix2 q k)) + b (ix2 p q) := by
  unfold k0_pay7 k0_pay2
  rw [shapeCast_self, shapeCast_self]
  exact congrArg (· + b (ix2 p q)) (mmx_apply (truncf .bf16 x bitsLt_bf16_f32) (truncf .bf16 W bitsLt_bf16_f32) p q)

/-- The hidden side's reset-gate piece at column q. -/
theorem pay8_apply (h : Vec Ideal S1x2048 .f32) (W : Vec Ideal S256x2048 .f32) (b : Vec Ideal S1x256 .f32) (p : Fin 1) (q : Fin 256) :
    k0_pay8 h W b (ix2 p q) = (∑ k : Fin 2048, h (ix2 p k) * W (ix2 q k)) + b (ix2 p q) := by
  unfold k0_pay8 k0_pay3
  rw [shapeCast_self, shapeCast_self]
  exact congrArg (· + b (ix2 p q)) (mmh_apply (truncf .bf16 h bitsLt_bf16_f32) (truncf .bf16 W bitsLt_bf16_f32) p q)

theorem pay3_apply (h : Vec Ideal S1x2048 .f32) (i : S1x2048.Idx) : k0_pay3 h i = h i := by
  unfold k0_pay3
  rw [shapeCast_self]
  rfl

theorem pay4_apply (h : Vec Ideal S1x256 .f32) (i : S1x256.Idx) : k0_pay4 h i = h i := by
  unfold k0_pay4
  rw [shapeCast_self]

/-- The stored value at column q, from the four gate pieces already formed and the two hidden-side products formed here. -/
theorem pay1_apply (v5 : FVec Ideal S1x2048 .bf16) (v7 v13 v19 v25 v31 : FVec Ideal S1x256 .f32)
    (v32 : Vec Ideal S256x2048 .f32) (v35 : Vec Ideal S1x256 .f32) (v38 : Vec Ideal S256x2048 .f32) (v41 : Vec Ideal S1x256 .f32)
    (p : Fin 1) (q : Fin 256) :
    k0_pay1 v5 v7 v13 v19 v25 v31 v32 v35 v38 v41 (ix2 p q)
      = (Cert.GruSpec.one - Ideal.logistic (v19 (ix2 p q) + ((∑ k : Fin 2048, v5 (ix2 p k) * v32 (ix2 q k)) + v35 (ix2 p q))))
          * Ideal.tanh (v25 (ix2 p q) + Ideal.logistic (v13 (ix2 p q) + v31 (ix2 p q))
              * ((∑ k : Fin 2048, v5 (ix2 p k) * v38 (ix2 q k)) + v41 (ix2 p q)))
        + Ideal.logistic (v19 (ix2 p q) + ((∑ k : Fin 2048, v5 (ix2 p k) * v32 (ix2 q k)) + v35 (ix2 p q))) * v7 (ix2 p q) := by
  unfold k0_pay1
  rw [shapeCast_self, shapeCast_self]
  have e1 := mmh_apply v5 (truncf .bf16 v32 bitsLt_bf16_f32) p q
  have e2 := mmh_apply v5 (truncf .bf16 v38 bitsLt_bf16_f32) p q
  show (Cert.GruSpec.one - Ideal.logistic (v19 (ix2 p q)
          + (matmul dot_S1x2048_S256x2048_S1x256_1_1_0_0_n_n none v5 (truncf .bf16 v32 bitsLt_bf16_f32) (constant S1x256 .f32 0x00000000#32) (ix2 p q) + v35 (ix2 p q))))
        * Ideal.tanh (v25 (ix2 p q) + Ideal.logistic (v13 (ix2 p q) + v31 (ix2 p q))
            * (matmul dot_S1x2048_S256x2048_S1x256_1_1_0_0_n_n none v5 (truncf .bf16 v38 bitsLt_bf16_f32) (constant S1x256 .f32 0x00000000#32) (ix2 p q) + v41 (ix2 p q)))
      + Ideal.logistic (v19 (ix2 p q)
          + (matmul dot_S1x2048_S256x2048_S1x256_1_1_0_0_n_n none v5 (truncf .bf16 v32 bitsLt_bf16_f32) (constant S1x256 .f32 0x00000000#32) (ix2 p q) + v35 (ix2 p q))) * v7 (ix2 p q) = _
  rw [e1, e2]
  rfl

/-! ## The body's stored row at an index, from the fifteen blocks -/

theorem hz : (![0, 0] : Fin 2 → Nat) = fun _ => 0 := funext fun a => by fin_cases a <;> rfl

/-- Column q of what the body stores: the GRU cell's new hidden state formed from row q of each gate's weight blocks,
    entry q of each bias piece and of the hidden slice, and the whole input and hidden rows. -/
theorem out_apply (x0 : Vec Ideal S1x2176 .f32) (x1 : Vec Ideal S1x2048 .f32) (x2 : Vec Ideal S1x256 .f32)
    (x3 x4 x5 : Vec Ideal S256x2176 .f32) (x6 x7 x8 : Vec Ideal S256x2048 .f32)
    (x9 x10 x11 x12 x13 x14 : Vec Ideal S1x256 .f32) (p : Fin 1) (q : Fin 256) :
    out x0 x1 x2 x3 x4 x5 x6 x7 x8 x9 x10 x11 x12 x13 x14 (ix2 p q)
      = (Cert.GruSpec.one - Ideal.logistic (((∑ k : Fin 2176, x0 (ix2 p k) * x4 (ix2 q k)) + x10 (ix2 p q))
              + ((∑ k : Fin 2048, x1 (ix2 p k) * x7 (ix2 q k)) + x13 (ix2 p q))))
          * Ideal.tanh (((∑ k : Fin 2176, x0 (ix2 p k) * x5 (ix2 q k)) + x11 (ix2 p q))
              + Ideal.logistic (((∑ k : Fin 2176, x0 (ix2 p k) * x3 (ix2 q k)) + x9 (ix2 p q))
                  + ((∑ k : Fin 2048, x1 (ix2 p k) * x6 (ix2 q k)) + x12 (ix2 p q)))
                * ((∑ k : Fin 2048, x1 (ix2 p k) * x8 (ix2 q k)) + x14 (ix2 p q)))
        + Ideal.logistic (((∑ k : Fin 2176, x0 (ix2 p k) * x4 (ix2 q k)) + x10 (ix2 p q))
              + ((∑ k : Fin 2048, x1 (ix2 p k) * x7 (ix2 q k)) + x13 (ix2 p q))) * x2 (ix2 p q) := by
  unfold out
  rw [View.canon_unit_zero hz]
  simp only [View.ld_unit_zero (S := S1x2176) hz, View.ld_unit_zero (S := S1x2048) hz, View.ld_unit_zero (S := S1x256) hz,
    View.ld_unit_zero (S := S256x2176) hz, View.ld_unit_zero (S := S256x2048) hz]
  rw [pay1_apply, pay5_apply, pay6_apply, pay7_apply, pay8_apply, pay4_apply]
  simp only [pay3_apply]

/-! ## Where each window's block sits in its array, decided once over the grid -/

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = t.val :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = 8 + t.val ∧ win0_4.index t (1 : Fin 2) = 0 :=
  (by decide +kernel : ∀ t : Fin grid0.N, _)
theorem idx_5 : ∀ t : Fin cfg0.N, win0_5.index t (0 : Fin 2) = 16 + t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = 8 + t.val ∧ win0_7.index t (1 : Fin 2) = 0 :=
  (by decide +kernel : ∀ t : Fin grid0.N, _)
theorem idx_8 : ∀ t : Fin cfg0.N, win0_8.index t (0 : Fin 2) = 16 + t.val ∧ win0_8.index t (1 : Fin 2) = 0 :=
  (by decide +kernel : ∀ t : Fin grid0.N, _)
theorem idx_9 : ∀ t : Fin cfg0.N, win0_9.index t (0 : Fin 2) = 0 ∧ win0_9.index t (1 : Fin 2) = t.val :=
  (by decide +kernel : ∀ t : Fin grid0.N, _)
theorem idx_10 : ∀ t : Fin cfg0.N, win0_10.index t (0 : Fin 2) = 0 ∧ win0_10.index t (1 : Fin 2) = 8 + t.val :=
  (by decide +kernel : ∀ t : Fin grid0.N, _)
theorem idx_11 : ∀ t : Fin cfg0.N, win0_11.index t (0 : Fin 2) = 0 ∧ win0_11.index t (1 : Fin 2) = 16 + t.val :=
  (by decide +kernel : ∀ t : Fin grid0.N, _)
theorem idx_12 : ∀ t : Fin cfg0.N, win0_12.index t (0 : Fin 2) = 0 ∧ win0_12.index t (1 : Fin 2) = t.val :=
  (by decide +kernel : ∀ t : Fin grid0.N, _)
theorem idx_13 : ∀ t : Fin cfg0.N, win0_13.index t (0 : Fin 2) = 0 ∧ win0_13.index t (1 : Fin 2) = 8 + t.val :=
  (by decide +kernel : ∀ t : Fin grid0.N, _)
theorem idx_14 : ∀ t : Fin cfg0.N, win0_14.index t (0 : Fin 2) = 0 ∧ win0_14.index t (1 : Fin 2) = 16 + t.val :=
  (by decide +kernel : ∀ t : Fin grid0.N, _)
theorem idx_15 : ∀ t : Fin cfg0.N, win0_15.index t (0 : Fin 2) = 0 ∧ win0_15.index t (1 : Fin 2) = t.val :=
  (by decide +kernel : ∀ t : Fin grid0.N, _)

theorem lt_N (t : Fin cfg0.N) : t.val < 8 := by
  have h : t.val < grid0.N := t.isLt
  rw [N_0] at h; exact h

/-- Column q of point t's 256-wide slice is column 256·t + q of the row. -/
def col (t : Fin cfg0.N) (q : Fin 256) : Fin 2048 := ⟨256 * t.val + q.val, by have := lt_N t; have := q.isLt; omega⟩

theorem col_val (t : Fin cfg0.N) (q : Fin 256) : (col t q).val = 256 * t.val + q.val := rfl

/-! ## Each input block read where the point's rectangle says

A block's coordinate on an axis is the block index times the block's extent plus the coordinate inside the block.  The
two whole rows are read in place; the hidden slice and the output at column 256·t + q; a weight block's row q, and a bias
piece's entry q, of gate g at row (entry) 2048·g + 256·t + q of the stacked operand. -/

theorem iblk0_apply (c : Dev nD) (t : Fin cfg0.N) (p : Fin 1) (k : Fin 2176) :
    iblk m c 0 t (ix2 p k) = V m c main_v51 (ix2 p k) := by
  obtain ⟨e0, e1⟩ := idx_0 t
  show V m c main_v51 (((cfg0.win 0).blk t).view.emb (ix2 p k)) = _
  refine congrArg (V m c main_v51) ?_
  funext a; apply Fin.ext
  match a with
  | ⟨0, _⟩ => show win0_0.index t (0 : Fin 2) * 1 + 1 * p.val = p.val; omega
  | ⟨1, _⟩ => show win0_0.index t (1 : Fin 2) * 2176 + 1 * k.val = k.val; omega

theorem iblk1_apply (c : Dev nD) (t : Fin cfg0.N) (p : Fin 1) (k : Fin 2048) :
    iblk m c 1 t (ix2 p k) = V m c main_v0 (ix2 p k) := by
  obtain ⟨e0, e1⟩ := idx_1 t
  show V m c main_v0 (((cfg0.win 1).blk t).view.emb (ix2 p k)) = _
  refine congrArg (V m c main_v0) ?_
  funext a; apply Fin.ext
  match a with
  | ⟨0, _⟩ => show win0_1.index t (0 : Fin 2) * 1 + 1 * p.val = p.val; omega
  | ⟨1, _⟩ => show win0_1.index t (1 : Fin 2) * 2048 + 1 * k.val = k.val; omega

theorem iblk2_apply (c : Dev nD) (t : Fin cfg0.N) (p : Fin 1) (q : Fin 256) :
    iblk m c 2 t (ix2 p q) = V m c main_v0 (ix2 p (col t q)) := by
  obtain ⟨e0, e1⟩ := idx_2 t
  show V m c main_v0 (((cfg0.win 2).blk t).view.emb (ix2 p q)) = _
  refine congrArg (V m c main_v0) ?_
  funext a; apply Fin.ext
  match a with
  | ⟨0, _⟩ => show win0_2.index t (0 : Fin 2) * 1 + 1 * p.val = p.val; omega
  | ⟨1, _⟩ => show win0_2.index t (1 : Fin 2) * 256 + 1 * q.val = 256 * t.val + q.val; omega

theorem iblk3_apply (c : Dev nD) (t : Fin cfg0.N) (q : Fin 256) (k : Fin 2176) :
    iblk m c 3 t (ix2 q k) = V m c main_arg8 (ix2 (Cert.GruSpec.grow 0 (col t q)) k) := by
  obtain ⟨e0, e1⟩ := idx_3 t
  show V m c main_arg8 (((cfg0.win 3).blk t).view.emb (ix2 q k)) = _
  refine congrArg (V m c main_arg8) ?_
  funext a; apply Fin.ext
  match a with
  | ⟨0, _⟩ => show win0_3.index t (0 : Fin 2) * 256 + 1 * q.val = 0 * 2048 + (256 * t.val + q.val); omega
  | ⟨1, _⟩ => show win0_3.index t (1 : Fin 2) * 2176 + 1 * k.val = k.val; omega

theorem iblk4_apply (c : Dev nD) (t : Fin cfg0.N) (q : Fin 256) (k : Fin 2176) :
    iblk m c 4 t (ix2 q k) = V m c main_arg8 (ix2 (Cert.GruSpec.grow 1 (col t q)) k) := by
  obtain ⟨e0, e1⟩ := idx_4 t
  show V m c main_arg8 (((cfg0.win 4).blk t).view.emb (ix2 q k)) = _
  refine congrArg (V m c main_arg8) ?_
  funext a; apply Fin.ext
  match a with
  | ⟨0, _⟩ => show win0_4.index t (0 : Fin 2) * 256 + 1 * q.val = 1 * 2048 + (256 * t.val + q.val); omega
  | ⟨1, _⟩ => show win0_4.index t (1 : Fin 2) * 2176 + 1 * k.val = k.val; omega

theorem iblk5_apply (c : Dev nD) (t : Fin cfg0.N) (q : Fin 256) (k : Fin 2176) :
    iblk m c 5 t (ix2 q k) = V m c main_arg8 (ix2 (Cert.GruSpec.grow 2 (col t q)) k) := by
  obtain ⟨e0, e1⟩ := idx_5 t
  show V m c main_arg8 (((cfg0.win 5).blk t).view.emb (ix2 q k)) = _
  refine congrArg (V m c main_arg8) ?_
  funext a; apply Fin.ext
  match a with
  | ⟨0, _⟩ => show win0_5.index t (0 : Fin 2) * 256 + 1 * q.val = 2 * 2048 + (256 * t.val + q.val); omega
  | ⟨1, _⟩ => show win0_5.index t (1 : Fin 2) * 2176 + 1 * k.val = k.val; omega

theorem iblk6_apply (c : Dev nD) (t : Fin cfg0.N) (q : Fin 256) (k : Fin 2048) :
    iblk m c 6 t (ix2 q k) = V m c main_arg9 (ix2 (Cert.GruSpec.grow 0 (col t q)) k) := by
  obtain ⟨e0, e1⟩ := idx_6 t
  show V m c main_arg9 (((cfg0.win 6).blk t).view.emb (ix2 q k)) = _
  refine congrArg (V m c main_arg9) ?_
  funext a; apply Fin.ext
  match a with
  | ⟨0, _⟩ => show win0_6.index t (0 : Fin 2) * 256 + 1 * q.val = 0 * 2048 + (256 * t.val + q.val); omega
  | ⟨1, _⟩ => show win0_6.index t (1 : Fin 2) * 2048 + 1 * k.val = k.val; omega

theorem iblk7_apply (c : Dev nD) (t : Fin cfg0.N) (q : Fin 256) (k : Fin 2048) :
    iblk m c 7 t (ix2 q k) = V m c main_arg9 (ix2 (Cert.GruSpec.grow 1 (col t q)) k) := by
  obtain ⟨e0, e1⟩ := idx_7 t
  show V m c main_arg9 (((cfg0.win 7).blk t).view.emb (ix2 q k)) = _
  refine congrArg (V m c main_arg9) ?_
  funext a; apply Fin.ext
  match a with
  | ⟨0, _⟩ => show win0_7.index t (0 : Fin 2) * 256 + 1 * q.val = 1 * 2048 + (256 * t.val + q.val); omega
  | ⟨1, _⟩ => show win0_7.index t (1 : Fin 2) * 2048 + 1 * k.val = k.val; omega

theorem iblk8_apply (c : Dev nD) (t : Fin cfg0.N) (q : Fin 256) (k : Fin 2048) :
    iblk m c 8 t (ix2 q k) = V m c main_arg9 (ix2 (Cert.GruSpec.grow 2 (col t q)) k) := by
  obtain ⟨e0, e1⟩ := idx_8 t
  show V m c main_arg9 (((cfg0.win 8).blk t).view.emb (ix2 q k)) = _
  refine congrArg (V m c main_arg9) ?_
  funext a; apply Fin.ext
  match a with
  | ⟨0, _⟩ => show win0_8.index t (0 : Fin 2) * 256 + 1 * q.val = 2 * 2048 + (256 * t.val + q.val); omega
  | ⟨1, _⟩ => show win0_8.index t (1 : Fin 2) * 2048 + 1 * k.val = k.val; omega

theorem iblk9_apply (c : Dev nD) (t : Fin cfg0.N) (p : Fin 1) (q : Fin 256) :
    iblk m c 9 t (ix2 p q) = V m c main_v52 (ix2 p (Cert.GruSpec.grow 0 (col t q))) := by
  obtain ⟨e0, e1⟩ := idx_9 t
  show V m c main_v52 (((cfg0.win 9).blk t).view.emb (ix2 p q)) = _
  refine congrArg (V m c main_v52) ?_
  funext a; apply Fin.ext
  match a with
  | ⟨0, _⟩ => show win0_9.index t (0 : Fin 2) * 1 + 1 * p.val = p.val; omega
  | ⟨1, _⟩ => show win0_9.index t (1 : Fin 2) * 256 + 1 * q.val = 0 * 2048 + (256 * t.val + q.val); omega

theorem iblk10_apply (c : Dev nD) (t : Fin cfg0.N) (p : Fin 1) (q : Fin 256) :
    iblk m c 10 t (ix2 p q) = V m c main_v52 (ix2 p (Cert.GruSpec.grow 1 (col t q))) := by
  obtain ⟨e0, e1⟩ := idx_10 t
  show V m c main_v52 (((cfg0.win 10).blk t).view.emb (ix2 p q)) = _
  refine congrArg (V m c main_v52) ?_
  funext a; apply Fin.ext
  match a with
  | ⟨0, _⟩ => show win0_10.index t (0 : Fin 2) * 1 + 1 * p.val = p.val; omega
  | ⟨1, _⟩ => show win0_10.index t (1 : Fin 2) * 256 + 1 * q.val = 1 * 2048 + (256 * t.val + q.val); omega

theorem iblk11_apply (c : Dev nD) (t : Fin cfg0.N) (p : Fin 1) (q : Fin 256) :
    iblk m c 11 t (ix2 p q) = V m c main_v52 (ix2 p (Cert.GruSpec.grow 2 (col t q))) := by
  obtain ⟨e0, e1⟩ := idx_11 t
  show V m c main_v52 (((cfg0.win 11).blk t).view.emb (ix2 p q)) = _
  refine congrArg (V m c main_v52) ?_
  funext a; apply Fin.ext
  match a with
  | ⟨0, _⟩ => show win0_11.index t (0 : Fin 2) * 1 + 1 * p.val = p.val; omega
  | ⟨1, _⟩ => show win0_11.index t (1 : Fin 2) * 256 + 1 * q.val = 2 * 2048 + (256 * t.val + q.val); omega

theorem iblk12_apply (c : Dev nD) (t : Fin cfg0.N) (p : Fin 1) (q : Fin 256) :
    iblk m c 12 t (ix2 p q) = V m c main_v53 (ix2 p (Cert.GruSpec.grow 0 (col t q))) := by
  obtain ⟨e0, e1⟩ := idx_12 t
  show V m c main_v53 (((cfg0.win 12).blk t).view.emb (ix2 p q)) = _
  refine congrArg (V m c main_v53) ?_
  funext a; apply Fin.ext
  match a with
  | ⟨0, _⟩ => show win0_12.index t (0 : Fin 2) * 1 + 1 * p.val = p.val; omega
  | ⟨1, _⟩ => show win0_12.index t (1 : Fin 2) * 256 + 1 * q.val = 0 * 2048 + (256 * t.val + q.val); omega

theorem iblk13_apply (c : Dev nD) (t : Fin cfg0.N) (p : Fin 1) (q : Fin 256) :
    iblk m c 13 t (ix2 p q) = V m c main_v53 (ix2 p (Cert.GruSpec.grow 1 (col t q))) := by
  obtain ⟨e0, e1⟩ := idx_13 t
  show V m c main_v53 (((cfg0.win 13).blk t).view.emb (ix2 p q)) = _
  refine congrArg (V m c main_v53) ?_
  funext a; apply Fin.ext
  match a with
  | ⟨0, _⟩ => show win0_13.index t (0 : Fin 2) * 1 + 1 * p.val = p.val; omega
  | ⟨1, _⟩ => show win0_13.index t (1 : Fin 2) * 256 + 1 * q.val = 1 * 2048 + (256 * t.val + q.val); omega

theorem iblk14_apply (c : Dev nD) (t : Fin cfg0.N) (p : Fin 1) (q : Fin 256) :
    iblk m c 14 t (ix2 p q) = V m c main_v53 (ix2 p (Cert.GruSpec.grow 2 (col t q))) := by
  obtain ⟨e0, e1⟩ := idx_14 t
  show V m c main_v53 (((cfg0.win 14).blk t).view.emb (ix2 p q)) = _
  refine congrArg (V m c main_v53) ?_
  funext a; apply Fin.ext
  match a with
  | ⟨0, _⟩ => show win0_14.index t (0 : Fin 2) * 1 + 1 * p.val = p.val; omega
  | ⟨1, _⟩ => show win0_14.index t (1 : Fin 2) * 256 + 1 * q.val = 2 * 2048 + (256 * t.val + q.val); omega

/-! ## What a point writes back, the cover, and the row -/

/-- The row the region leaves: the specification's function of the six operand arrays as the region finds them. -/
abbrev G (c : Dev nD) : S1x2048.Idx → EReal :=
  Cert.GruSpec.hnew (V m c main_v51) (V m c main_v0) (V m c main_arg8) (V m c main_arg9) (V m c main_v52) (V m c main_v53)

/-- Column q of point t's output block is column 256·t + q of the row. -/
theorem emb15 (t : Fin cfg0.N) (p : Fin 1) (q : Fin 256) :
    ((cfg0.win 15).blk t).view.emb (ix2 p q) = (ix2 p (col t q) : S1x2048.Idx) := by
  obtain ⟨e0, e1⟩ := idx_15 t
  funext a; apply Fin.ext
  match a with
  | ⟨0, _⟩ => show win0_15.index t (0 : Fin 2) * 1 + 1 * p.val = p.val; omega
  | ⟨1, _⟩ => show win0_15.index t (1 : Fin 2) * 256 + 1 * q.val = 256 * t.val + q.val; omega

/-- What point t writes back is block t of the specification's row. -/
theorem flushed_eq (c : Dev nD) (t : Fin cfg0.N) :
    (dats m 0 c).flushed 15 t = ((cfg0.win 15).blk t).view.read (Elt Ideal) (G m c) := by
  show (cfg0.win 15).cut (grid0.coords t) ((dats m 0 c).after 15 t) = _
  rw [after_15]
  funext j
  obtain ⟨p, q, rfl⟩ : ∃ (p : Fin 1) (q : Fin 256), j = ix2 p q := ⟨(j 0 : Fin 1), (j 1 : Fin 256), eq_ix2 (n0 := 1) (n1 := 256) j⟩
  show out (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (ix2 p q)
    = G m c (((cfg0.win 15).blk t).view.emb (ix2 p q))
  refine Eq.trans ?_ (congrArg (G m c) (emb15 t p q).symm)
  refine (out_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p q).trans ?_
  obtain rfl : p = 0 := Subsingleton.elim _ _
  show _ = Cert.GruSpec.hnewAt (V m c main_v51) (V m c main_v0) (V m c main_arg8) (V m c main_arg9) (V m c main_v52) (V m c main_v53) (col t q)
  unfold Cert.GruSpec.hnewAt Cert.GruSpec.preIn Cert.GruSpec.preHid
  simp only [iblk0_apply, iblk1_apply, iblk2_apply, iblk3_apply, iblk4_apply, iblk5_apply, iblk6_apply, iblk7_apply,
    iblk8_apply, iblk9_apply, iblk10_apply, iblk11_apply, iblk12_apply, iblk13_apply, iblk14_apply]

/-- Column j of the row is in the block of point j / 256, and every point writes its block back. -/
theorem cover (i : S1x2048.Idx) :
    ∃ t : Fin cfg0.N, (cfg0.win 15).flush t = true ∧ i ∈ ((cfg0.win 15).blk t).view.set := by
  have hi0 : (i 0).val < 1 := (i 0).isLt
  have hi1 : (i 1).val < 2048 := (i 1).isLt
  obtain ⟨t, htv⟩ : ∃ t : Fin cfg0.N, t.val = (i 1).val / 256 :=
    ⟨⟨(i 1).val / 256, by show (i 1).val / 256 < grid0.N; rw [N_0]; omega⟩, rfl⟩
  obtain ⟨e0, e1⟩ := idx_15 t
  refine ⟨t, flush0_15 t, ?_⟩
  show i ∈ ((View.whole main_v54).slice (win0_15.rect t)).set
  rw [View.set_slice_whole, Rect.mem_set_unit]
  intro a
  match a with
  | ⟨0, _⟩ => show win0_15.index t (0 : Fin 2) * 1 ≤ (i 0).val ∧ (i 0).val < win0_15.index t (0 : Fin 2) * 1 + 1; omega
  | ⟨1, _⟩ => show win0_15.index t (1 : Fin 2) * 256 ≤ (i 1).val ∧ (i 1).val < win0_15.index t (1 : Fin 2) * 256 + 256; omega

/-- After the region the output row holds the GRU cell's new hidden state, as the specification's function of
    the input row, the hidden row, the two weight matrices and the two bias rows as the region found them. -/
theorem out_row (c : Dev nD) :
    ((dats m 0 c).arrAt 15 cfg0.N : S1x2048.Idx → EReal)
      = Cert.GruSpec.hnew (V m c main_v51) (V m c main_v0) (V m c main_arg8) (V m c main_arg9) (V m c main_v52) (V m c main_v53) :=
  (dats m 0 c).arrAt_eq_of_cover 15 (G m c) (fun t _ => flushed_eq m c t) cover

end Cert.KernelIdeal.Hand

end
-- ==== Proof.RefGen.lean ====
/-
  The reference program's run and its read-at-an-index lemmas, brought in for the value bridge.
-/
import proofs.«178255_j28432683500169_1_alg».proof.Proof.Gen.ReferenceIdeal.Run
import proofs.«178255_j28432683500169_1_alg».proof.Proof.Gen.ReferenceIdeal.Read
-- ==== Proof.RefValue.lean ====
/-
  The reference's new hidden state, at the ideal instance, as the specification's function.

  The reference forms both 6144-wide preactivation rows by one product each against the transposed
  stacked weights, adds the broadcast biases, and slices each row into its three 2048-wide gates; the
  logistic function is spelt out as one over one plus the exponential of the negation.  Read at column j,
  gate g's slice is the row at 2048·g + j, each product a sum over the contracted axis, the transposes
  read back; the spelt-out logistic is the logistic function.
-/
import proofs.«178255_j28432683500169_1_alg».proof.Proof.RefGen
import proofs.«178255_j28432683500169_1_alg».proof.Proof.GruSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The float word of one, and the spelt-out logistic -/

/-- The single-precision word 0x3F800000 denotes the real number one. -/
theorem one_f32 : Ideal.ofBits .f32 0x3F800000#32 = (1 : EReal) := by
  simp [Ideal.ofBits, Ideal.ieee, -EReal.coe_mul]; norm_num

/-- One over (one plus the exponential of the negation), in the host's operations and with both ones written
    as the float word, is the logistic function. -/
theorem logistic_spelt (a : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf a)))
      = Ideal.logistic a := by
  simp only [Ideal.hostDivf_def, Ideal.addf_def, Ideal.hostUnary_exp_def, Ideal.hostNegf_def, Ideal.negf_def,
    Ideal.ofBits_def, one_f32]
  rfl

/-! ## The arguments -/

variable (x0 : (⟨S1, .i32⟩ : BufTy).Contents (Elt Ideal)) (x1 : (⟨S1x1x2048, .f32⟩ : BufTy).Contents (Elt Ideal))
  (x2 : (⟨S1x200x128, .f32⟩ : BufTy).Contents (Elt Ideal)) (x3 : (⟨S45x2048, .f32⟩ : BufTy).Contents (Elt Ideal))
  (x4 : (⟨S3x2048, .f32⟩ : BufTy).Contents (Elt Ideal)) (x5 : (⟨S3, .f32⟩ : BufTy).Contents (Elt Ideal))
  (x6 : (⟨S128x2048, .f32⟩ : BufTy).Contents (Elt Ideal)) (x7 : (⟨S128, .f32⟩ : BufTy).Contents (Elt Ideal))
  (x8 : (⟨S6144x2176, .f32⟩ : BufTy).Contents (Elt Ideal)) (x9 : (⟨S6144x2048, .f32⟩ : BufTy).Contents (Elt Ideal))
  (x10 x11 : (⟨S6144, .f32⟩ : BufTy).Contents (Elt Ideal))

/-! ## The two preactivation rows at a gate's column -/

/-- The input side: the product row plus the bias row, read at column 2048·g + j, is the sum over the 2176 input
    coordinates of the input times the weight at (row 2048·g + j, that coordinate), plus the bias there. -/
theorem pre_in (p : Fin 1) (g : Fin 3) (j : Fin 2048) :
    val_main_v55 (F := Ideal) x0 x1 x2 x3 x4 x5 x6 x7 x8 x10 (ix2 p (GruSpec.grow g j))
      = GruSpec.preIn (val_main_v51 (F := Ideal) x0 x1 x2 x3 x4 x5 x6 x7) x8 (val_main_v54 (F := Ideal) x10) g j := by
  obtain rfl : p = 0 := Subsingleton.elim _ _
  rw [val_main_v55_apply, val_main_v53_apply]
  unfold GruSpec.preIn
  refine congrArg₂ (· + ·) (Finset.sum_congr rfl fun k _ => ?_) rfl
  have hl : lidx_main_v53 (ix2 (0 : Fin 1) (GruSpec.grow g j)) k = ix2 (0 : Fin 1) k :=
    funext fun a => by match a with | ⟨0, _⟩ => rfl | ⟨1, _⟩ => rfl
  have hr : idx_main_v52 (ridx_main_v53 (ix2 (0 : Fin 1) (GruSpec.grow g j)) k) = ix2 (GruSpec.grow g j) k :=
    funext fun a => by match a with | ⟨0, _⟩ => rfl | ⟨1, _⟩ => rfl
  rw [val_main_v52_apply, hl, hr]

/-- The hidden side, likewise over the 2048 hidden coordinates. -/
theorem pre_hid (p : Fin 1) (g : Fin 3) (j : Fin 2048) :
    val_main_v59 (F := Ideal) x1 x9 x11 (ix2 p (GruSpec.grow g j))
      = GruSpec.preHid (val_main_v0 (F := Ideal) x1) x9 (val_main_v58 (F := Ideal) x11) g j := by
  obtain rfl : p = 0 := Subsingleton.elim _ _
  rw [val_main_v59_apply, val_main_v57_apply]
  unfold GruSpec.preHid
  refine congrArg₂ (· + ·) (Finset.sum_congr rfl fun k _ => ?_) rfl
  have hl : lidx_main_v57 (ix2 (0 : Fin 1) (GruSpec.grow g j)) k = ix2 (0 : Fin 1) k :=
    funext fun a => by match a with | ⟨0, _⟩ => rfl | ⟨1, _⟩ => rfl
  have hr : idx_main_v56 (ridx_main_v57 (ix2 (0 : Fin 1) (GruSpec.grow g j)) k) = ix2 (GruSpec.grow g j) k :=
    funext fun a => by match a with | ⟨0, _⟩ => rfl | ⟨1, _⟩ => rfl
  rw [val_main_v56_apply, hl, hr]

/-! ## The six slices at column j: gate g's slice reads its row at column 2048·g + j -/

theorem in_reset (p : Fin 1) (j : Fin 2048) :
    val_main_v60 (F := Ideal) x0 x1 x2 x3 x4 x5 x6 x7 x8 x10 (ix2 p j)
      = GruSpec.preIn (val_main_v51 (F := Ideal) x0 x1 x2 x3 x4 x5 x6 x7) x8 (val_main_v54 (F := Ideal) x10) 0 j := by
  have hi : idx_main_v60 (ix2 p j) = ix2 p (GruSpec.grow 0 j) :=
    funext fun a => by
      match a with
      | ⟨0, _⟩ => rfl
      | ⟨1, _⟩ => exact Fin.ext (by show j.val = 0 * 2048 + j.val; omega)
  rw [val_main_v60_apply, hi]
  exact pre_in x0 x1 x2 x3 x4 x5 x6 x7 x8 x10 p 0 j

theorem in_update (p : Fin 1) (j : Fin 2048) :
    val_main_v61 (F := Ideal) x0 x1 x2 x3 x4 x5 x6 x7 x8 x10 (ix2 p j)
      = GruSpec.preIn (val_main_v51 (F := Ideal) x0 x1 x2 x3 x4 x5 x6 x7) x8 (val_main_v54 (F := Ideal) x10) 1 j := by
  have hi : idx_main_v61 (ix2 p j) = ix2 p (GruSpec.grow 1 j) :=
    funext fun a => by
      match a with
      | ⟨0, _⟩ => rfl
      | ⟨1, _⟩ => exact Fin.ext (by show 2048 + j.val = 1 * 2048 + j.val; omega)
  rw [val_main_v61_apply, hi]
  exact pre_in x0 x1 x2 x3 x4 x5 x6 x7 x8 x10 p 1 j

theorem in_cand (p : Fin 1) (j : Fin 2048) :
    val_main_v62 (F := Ideal) x0 x1 x2 x3 x4 x5 x6 x7 x8 x10 (ix2 p j)
      = GruSpec.preIn (val_main_v51 (F := Ideal) x0 x1 x2 x3 x4 x5 x6 x7) x8 (val_main_v54 (F := Ideal) x10) 2 j := by
  have hi : idx_main_v62 (ix2 p j) = ix2 p (GruSpec.grow 2 j) :=
    funext fun a => by
      match a with
      | ⟨0, _⟩ => rfl
      | ⟨1, _⟩ => exact Fin.ext (by show 4096 + j.val = 2 * 2048 + j.val; omega)
  rw [val_main_v62_apply, hi]
  exact pre_in x0 x1 x2 x3 x4 x5 x6 x7 x8 x10 p 2 j

theorem hid_reset (p : Fin 1) (j : Fin 2048) :
    val_main_v63 (F := Ideal) x1 x9 x11 (ix2 p j)
      = GruSpec.preHid (val_main_v0 (F := Ideal) x1) x9 (val_main_v58 (F := Ideal) x11) 0 j := by
  have hi : idx_main_v63 (ix2 p j) = ix2 p (GruSpec.grow 0 j) :=
    funext fun a => by
      match a with
      | ⟨0, _⟩ => rfl
      | ⟨1, _⟩ => exact Fin.ext (by show j.val = 0 * 2048 + j.val; omega)
  rw [val_main_v63_apply, hi]
  exact pre_hid x1 x9 x11 p 0 j

theorem hid_update (p : Fin 1) (j : Fin 2048) :
    val_main_v64 (F := Ideal) x1 x9 x11 (ix2 p j)
      = GruSpec.preHid (val_main_v0 (F := Ideal) x1) x9 (val_main_v58 (F := Ideal) x11) 1 j := by
  have hi : idx_main_v64 (ix2 p j) = ix2 p (GruSpec.grow 1 j) :=
    funext fun a => by
      match a with
      | ⟨0, _⟩ => rfl
      | ⟨1, _⟩ => exact Fin.ext (by show 2048 + j.val = 1 * 2048 + j.val; omega)
  rw [val_main_v64_apply, hi]
  exact pre_hid x1 x9 x11 p 1 j

theorem hid_cand (p : Fin 1) (j : Fin 2048) :
    val_main_v65 (F := Ideal) x1 x9 x11 (ix2 p j)
      = GruSpec.preHid (val_main_v0 (F := Ideal) x1) x9 (val_main_v58 (F := Ideal) x11) 2 j := by
  have hi : idx_main_v65 (ix2 p j) = ix2 p (GruSpec.grow 2 j) :=
    funext fun a => by
      match a with
      | ⟨0, _⟩ => rfl
      | ⟨1, _⟩ => exact Fin.ext (by show 4096 + j.val = 2 * 2048 + j.val; omega)
  rw [val_main_v65_apply, hi]
  exact pre_hid x1 x9 x11 p 2 j

/-! ## The gates, the candidate, the row -/

/-- The reset gate at column j: the logistic function of the sum of the two reset preactivations. -/
theorem gate_reset (p : Fin 1) (j : Fin 2048) :
    val_main_v72 (F := Ideal) x0 x1 x2 x3 x4 x5 x6 x7 x8 x9 x10 x11 (ix2 p j)
      = Ideal.logistic (GruSpec.preIn (val_main_v51 (F := Ideal) x0 x1 x2 x3 x4 x5 x6 x7) x8 (val_main_v54 (F := Ideal) x10) 0 j
          + GruSpec.preHid (val_main_v0 (F := Ideal) x1) x9 (val_main_v58 (F := Ideal) x11) 0 j) := by
  rw [val_main_v72_apply, val_main_v71_apply, val_main_cst_5_apply, val_main_v70_apply, val_main_v69_apply,
    val_main_cst_4_apply, val_main_v68_apply, val_main_v67_apply, val_main_v66_apply, in_reset, hid_reset]
  exact logistic_spelt _

/-- The update gate at column j, likewise of the two update preactivations. -/
theorem gate_update (p : Fin 1) (j : Fin 2048) :
    val_main_v79 (F := Ideal) x0 x1 x2 x3 x4 x5 x6 x7 x8 x9 x10 x11 (ix2 p j)
      = Ideal.logistic (GruSpec.preIn (val_main_v51 (F := Ideal) x0 x1 x2 x3 x4 x5 x6 x7) x8 (val_main_v54 (F := Ideal) x10) 1 j
          + GruSpec.preHid (val_main_v0 (F := Ideal) x1) x9 (val_main_v58 (F := Ideal) x11) 1 j) := by
  rw [val_main_v79_apply, val_main_v78_apply, val_main_cst_7_apply, val_main_v77_apply, val_main_v76_apply,
    val_main_cst_6_apply, val_main_v75_apply, val_main_v74_apply, val_main_v73_apply, in_update, hid_update]
  exact logistic_spelt _

/-- The candidate at column j: the hyperbolic tangent of the input candidate preactivation plus the reset gate
    times the hidden candidate preactivation. -/
theorem candidate (p : Fin 1) (j : Fin 2048) :
    val_main_v82 (F := Ideal) x0 x1 x2 x3 x4 x5 x6 x7 x8 x9 x10 x11 (ix2 p j)
      = Ideal.tanh (GruSpec.preIn (val_main_v51 (F := Ideal) x0 x1 x2 x3 x4 x5 x6 x7) x8 (val_main_v54 (F := Ideal) x10) 2 j
          + Ideal.logistic (GruSpec.preIn (val_main_v51 (F := Ideal) x0 x1 x2 x3 x4 x5 x6 x7) x8 (val_main_v54 (F := Ideal) x10) 0 j
              + GruSpec.preHid (val_main_v0 (F := Ideal) x1) x9 (val_main_v58 (F := Ideal) x11) 0 j)
            * GruSpec.preHid (val_main_v0 (F := Ideal) x1) x9 (val_main_v58 (F := Ideal) x11) 2 j) := by
  rw [val_main_v82_apply, val_main_v81_apply, val_main_v80_apply, in_cand, gate_reset, hid_cand]
  rfl

/-- The reference's new hidden state is the specification's function of the input row, the hidden row, the two
    stacked weights and the two broadcast bias rows. -/
theorem ref_row :
    (val_main_v87 (F := Ideal) x0 x1 x2 x3 x4 x5 x6 x7 x8 x9 x10 x11 : S1x2048.Idx → EReal)
      = Cert.GruSpec.hnew (val_main_v51 (F := Ideal) x0 x1 x2 x3 x4 x5 x6 x7) (val_main_v0 (F := Ideal) x1) x8 x9
          (val_main_v54 (F := Ideal) x10) (val_main_v58 (F := Ideal) x11) := by
  funext i
  obtain ⟨p, j, rfl⟩ : ∃ (p : Fin 1) (j : Fin 2048), i = ix2 p j := ⟨i 0, i 1, eq_ix2 i⟩
  obtain rfl : p = 0 := Subsingleton.elim _ _
  rw [GruSpec.hnew_apply, val_main_v87_apply, val_main_v85_apply, val_main_v86_apply, val_main_v84_apply,
    val_main_v83_apply, val_main_cst_8_apply, gate_update, candidate]
  rfl

end Cert.ReferenceIdeal.RefValue

end
-- ==== Proof.BiasRow.lean ====
/-
  The two spellings of a stacked bias row agree where the GRU cell reads them.

  The kernel's host side reshapes a 6144-long bias vector to one row of 6144; the reference broadcasts
  it along a new leading axis of extent one.  Both rows hold the vector's entry j at (0, j).  The cell's
  new hidden state reads a bias row only at row 0, so it is the same function of either spelling.
-/
import proofs.«178255_j28432683500169_1_alg».proof.KernelIdeal
import proofs.«178255_j28432683500169_1_alg».proof.ReferenceIdeal
import proofs.«178255_j28432683500169_1_alg».proof.Proof.Gen.KernelIdeal
import proofs.«178255_j28432683500169_1_alg».proof.Proof.Gen.ReferenceIdeal
import proofs.«178255_j28432683500169_1_alg».proof.Proof.GruSpec
import Idealize.ShloMosaic.Lib.Pipeline.Value
import Idealize.ShloMosaic.Lib.ValueIdx
import Idealize.ShloMosaic.Lib.ValueLayout

noncomputable section

open scoped BigOperators

namespace Cert.Proof.BiasRow

open Idealize.ShloMosaic Idealize.ShloMosaic.ValueIdx

/-- The specification's new hidden state depends on a bias row only through its entries on row 0. -/
theorem hnew_congr (x : Cert.GruSpec.Sx.Idx → EReal) (h : Cert.GruSpec.Sh.Idx → EReal) (wi : Cert.GruSpec.Swi.Idx → EReal)
    (wh : Cert.GruSpec.Swh.Idx → EReal) (bi bi' bh bh' : Cert.GruSpec.Sb.Idx → EReal)
    (hi : ∀ j : Fin 6144, bi (ix2 (0 : Fin 1) j) = bi' (ix2 (0 : Fin 1) j))
    (hh : ∀ j : Fin 6144, bh (ix2 (0 : Fin 1) j) = bh' (ix2 (0 : Fin 1) j)) :
    Cert.GruSpec.hnew x h wi wh bi bh = Cert.GruSpec.hnew x h wi wh bi' bh' := by
  have e1 : ∀ g j, Cert.GruSpec.preIn x wi bi g j = Cert.GruSpec.preIn x wi bi' g j := fun g j => by
    unfold Cert.GruSpec.preIn; rw [hi]
  have e2 : ∀ g j, Cert.GruSpec.preHid h wh bh g j = Cert.GruSpec.preHid h wh bh' g j := fun g j => by
    unfold Cert.GruSpec.preHid; rw [hh]
  have hat : ∀ j : Fin 2048, Cert.GruSpec.hnewAt x h wi wh bi bh j = Cert.GruSpec.hnewAt x h wi wh bi' bh' j := fun j => by
    unfold Cert.GruSpec.hnewAt
    simp only [e1, e2]
  funext i
  exact hat (i 1)

/-- The kernel side's reshaped row and the reference's broadcast row of one bias vector agree on row 0. -/
theorem row_agree (a : (⟨Cert.KernelIdeal.S6144, .f32⟩ : BufTy).Contents (Elt Ideal)) (j : Fin 6144) :
    (shapeCast Cert.KernelIdeal.S1x6144 a Cert.KernelIdeal.Gen.shapeCasts_S6144_S1x6144 : Cert.GruSpec.Sb.Idx → EReal) (ix2 (0 : Fin 1) j)
      = (broadcastInDim Cert.ReferenceIdeal.S1x6144 ![1] Cert.ReferenceIdeal.Gen.bcast_S6144_S1x6144_1 a : Cert.GruSpec.Sb.Idx → EReal) (ix2 (0 : Fin 1) j) := by
  -- both rows hold the vector's entry j there
  have hk : ∀ a' : Fin 1, ((ix1 j : Cert.ReferenceIdeal.S6144.Idx) a').val
      = if Cert.ReferenceIdeal.S6144.size a' = 1 then 0 else ((ix2 (0 : Fin 1) j : Cert.ReferenceIdeal.S1x6144.Idx) ((![1] : Fin 1 → Fin 2) a')).val :=
    fun a' => match a' with
      | ⟨0, _⟩ => by show j.val = if (6144 : Nat) = 1 then 0 else j.val; rw [if_neg (by decide)]
  exact (shapeCast_a_1a_apply a Cert.KernelIdeal.Gen.shapeCasts_S6144_S1x6144 (0 : Fin 1) j).trans
    (broadcastInDim_apply _ Cert.ReferenceIdeal.Gen.bcast_S6144_S1x6144_1 a (ix2 (0 : Fin 1) j) (ix1 j) hk).symm

end Cert.Proof.BiasRow

end
-- ==== Proof.Bridge.lean ====
/-
  The two idealized programs compute the same three results.

  Both programs run one host prefix — the stack update, the embedding gather, the concatenation that
  forms the GRU input — so the kernel program's GRU input row, hidden row and updated stack are the
  reference's, as functions of the arguments.  The kernel region leaves the specification's new hidden
  state of those rows, the weights and the reshaped bias rows; the reference's new hidden state is the
  specification's of the same rows, the weights and the broadcast bias rows; the two spellings of a
  bias row agree on the row the specification reads.  The decoder and the re-ranking that follow are
  the same operations of equal operands.
-/
import proofs.«178255_j28432683500169_1_alg».proof.Proof.KiOut
import proofs.«178255_j28432683500169_1_alg».proof.Proof.KiValue
import proofs.«178255_j28432683500169_1_alg».proof.Proof.RefValue
import proofs.«178255_j28432683500169_1_alg».proof.Proof.BiasRow
import Idealize.ShloMosaic.Lib.StableHlo.Run

set_option maxRecDepth 16384

noncomputable section

namespace Cert.Proof.Bridge

open Idealize.ShloMosaic Idealize.ShloMosaic.TcCoe Idealize.ShloMosaic.StableHlo
open Idealize.SL Idealize.SL.Sem
open Cert.KernelIdeal.Hand

variable (m : (ℓ : Loc Cert.KernelIdeal.nD Cert.KernelIdeal.τ Cert.KernelIdeal.sig) → Buf (Elt Ideal) ℓ) (c : Dev Cert.KernelIdeal.nD)

/-! ## The host prefix, shared -/

set_option maxHeartbeats 4000000 in
/-- The kernel program's GRU input row is the reference's, of the same arguments. -/
theorem ker_v51 : V m c Cert.KernelIdeal.main_v51 = Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  show StableHlo.after (List.flatten [Cert.KernelIdeal.Gen.hostOps0]) (fun b => m (c, b)) (Proc.devRef .tc Cert.KernelIdeal.main_v51) = _
  simp only [Cert.KernelIdeal.Gen.hostOps0, List.flatten_cons, List.flatten_nil, List.append_nil]
  after_results_simp
  rfl

/-- The hidden row. -/
theorem ker_v0 : V m c Cert.KernelIdeal.main_v0 = Cert.ReferenceIdeal.Read.val_main_v0 (F := Ideal) (m ((c.tc : Thread Cert.KernelIdeal.nD Cert.KernelIdeal.τ).loc Cert.KernelIdeal.main_arg1)) := by
  show StableHlo.after (List.flatten [Cert.KernelIdeal.Gen.hostOps0]) (fun b => m (c, b)) (Proc.devRef .tc Cert.KernelIdeal.main_v0) = _
  simp only [Cert.KernelIdeal.Gen.hostOps0, List.flatten_cons, List.flatten_nil, List.append_nil]
  after_results
  rfl

set_option maxHeartbeats 4000000 in
/-- The updated stack. -/
theorem ker_v41 : V m c Cert.KernelIdeal.main_v41 = Cert.ReferenceIdeal.Read.val_main_v41 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  show StableHlo.after (List.flatten [Cert.KernelIdeal.Gen.hostOps0]) (fun b => m (c, b)) (Proc.devRef .tc Cert.KernelIdeal.main_v41) = _
  simp only [Cert.KernelIdeal.Gen.hostOps0, List.flatten_cons, List.flatten_nil, List.append_nil]
  after_results_simp
  rfl

/-- The kernel side's bias rows: the bias vectors reshaped to one row. -/
theorem ker_v52 : V m c Cert.KernelIdeal.main_v52 = shapeCast Cert.KernelIdeal.S1x6144 (m ((c.tc : Thread Cert.KernelIdeal.nD Cert.KernelIdeal.τ).loc Cert.KernelIdeal.main_arg10)) Cert.KernelIdeal.Gen.shapeCasts_S6144_S1x6144 := by
  show StableHlo.after (List.flatten [Cert.KernelIdeal.Gen.hostOps0]) (fun b => m (c, b)) (Proc.devRef .tc Cert.KernelIdeal.main_v52) = _
  simp only [Cert.KernelIdeal.Gen.hostOps0, List.flatten_cons, List.flatten_nil, List.append_nil]
  after_results
  rfl
theorem ker_v53 : V m c Cert.KernelIdeal.main_v53 = shapeCast Cert.KernelIdeal.S1x6144 (m ((c.tc : Thread Cert.KernelIdeal.nD Cert.KernelIdeal.τ).loc Cert.KernelIdeal.main_arg11)) Cert.KernelIdeal.Gen.shapeCasts_S6144_S1x6144 := by
  show StableHlo.after (List.flatten [Cert.KernelIdeal.Gen.hostOps0]) (fun b => m (c, b)) (Proc.devRef .tc Cert.KernelIdeal.main_v53) = _
  simp only [Cert.KernelIdeal.Gen.hostOps0, List.flatten_cons, List.flatten_nil, List.append_nil]
  after_results
  rfl

/-! ## The new hidden state -/

/-- The output row the region leaves is the reference's new hidden state. -/
theorem hnew_eq : (dats m 0 c).arrAt 15 Cert.KernelIdeal.cfg0.N = Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [out_row m c, Cert.ReferenceIdeal.RefValue.ref_row, ker_v51 m c, ker_v0 m c, V_main_arg8 m c, V_main_arg9 m c, ker_v52 m c, ker_v53 m c]
  exact Cert.Proof.BiasRow.hnew_congr _ _ _ _ _ _ _ _ (fun j => Cert.Proof.BiasRow.row_agree _ j) (fun j => Cert.Proof.BiasRow.row_agree _ j)

/-! ## The three results -/

/-- The decoder's output. -/
theorem res_v58 : Wfin m c Cert.KernelIdeal.main_v58 = Cert.ReferenceIdeal.Read.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [Wfin_v58 m c, hnew_eq m c]
  rfl

/-- The new hidden state with its leading axis. -/
theorem res_v59 : Wfin m c Cert.KernelIdeal.main_v59 = Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [Wfin_v59 m c, hnew_eq m c]
  rfl

/-- The updated stack. -/
theorem res_v41 : Wfin m c Cert.KernelIdeal.main_v41 = Cert.ReferenceIdeal.Read.val_main_v41 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Wfin_v41 m c, ker_v41 m c]

end Cert.Proof.Bridge

end
-- ==== Proof.lean ====
/-
  A GRU-with-stack recurrent step: the Pallas kernel program against its jnp reference.

  Both programs update a differentiable stack, gather the token's embedding, and feed the embedding
  joined to the stack's top row, with the hidden row, to one GRU cell; a linear decoder reads the new
  hidden row.  They differ only in the cell: the kernel program computes it in a pallas_call over
  eight 256-column slices of the hidden state, each gate's product taken against that slice's 256 rows
  of the gate-stacked weights (after a change of float format, which the ideal instance reads as the
  identity) and its logistic function one operation; the reference takes two 6144-wide products,
  slices them into gates, and spells the logistic function out.  Over the extended reals both are
  h' = (1 − z) · n + z · h with r = σ(a_r + c_r), z = σ(a_z + c_z), n = tanh(a_n + r · c_n), the a's
  and c's the input-side and hidden-side preactivations: no law beyond reading each product as the same
  sum is needed, so the precondition is never opened.

  The frames.  The reference is host operations only: its generated run.  The kernel program's @main is
  sixty host operations, the region, five more.  Its kernel reads five arrays through two or three
  windows each, so the region is launched with each shared array's points-to split among its windows
  by share, and the later operations — which touch none of the shared arrays — run beside them.  The
  same text serves the word-level program and the idealized one.
-/
import proofs.«178255_j28432683500169_1_alg».proof.Defs
import proofs.«178255_j28432683500169_1_alg».proof.Proof.Gen.Kernel
import proofs.«178255_j28432683500169_1_alg».proof.Proof.Gen.KernelIdeal
import proofs.«178255_j28432683500169_1_alg».proof.Proof.Gen.ReferenceIdeal
import proofs.«178255_j28432683500169_1_alg».proof.Proof.Gen.Pre_finite_inputs
import proofs.«178255_j28432683500169_1_alg».proof.Proof.KbRun
import proofs.«178255_j28432683500169_1_alg».proof.Proof.KiRun
import proofs.«178255_j28432683500169_1_alg».proof.Proof.Bridge

noncomputable section

namespace Cert.Proof

open Idealize.ShloMosaic Idealize.SL.Sem

/-- The word-level kernel program runs and leaves its arguments as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both idealized programs end with the decoder's output, the new
    hidden state and the updated stack equal: the kernel program's run names its three results, and the
    reference's run ends at the same three by the bridge. -/
theorem algebraic : Cert.algebraic_KernelIdeal_ReferenceIdeal := by
  intro m ρ m' ρ' _ hagree
  refine ⟨fun c => Cert.KernelIdeal.Hand.Wfin m c Cert.KernelIdeal.main_v58, fun c => Cert.KernelIdeal.Hand.Wfin m c Cert.KernelIdeal.main_v59,
    fun c => Cert.KernelIdeal.Hand.Wfin m c Cert.KernelIdeal.main_v41, ?_, ?_⟩
  · refine (θ_run Cert.KernelIdeal.defs _ _).mono (fun r h c => ?_) (Cert.KernelIdeal.Hand.run_main m ρ)
    exact ⟨(h c).2 _ (Pipeline.mem_restRefs_of Cert.KernelIdeal.main_v58 (by decide) (by decide)),
      (h c).2 _ (Pipeline.mem_restRefs_of Cert.KernelIdeal.main_v59 (by decide) (by decide)),
      (h c).2 _ (Pipeline.mem_restRefs_of Cert.KernelIdeal.main_v41 (by decide) (by decide)), Cert.KernelIdeal.Hand.args_kept m r h c⟩
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13⟩ := hagree c
    refine ⟨(h c).1.trans ?_, (h c).2.1.trans ?_, (h c).2.2.1.trans ?_, (h c).2.2.2⟩
    · rw [Cert.ReferenceIdeal.Read.val_main_v91_eq, h0, h1, h2, h3, h4, h5, h6, h7, h8, h9, h10, h11, h12, h13]
      exact (Cert.Proof.Bridge.res_v58 m c).symm
    · rw [Cert.ReferenceIdeal.Read.val_main_v92_eq, h0, h1, h2, h3, h4, h5, h6, h7, h8, h9, h10, h11]
      exact (Cert.Proof.Bridge.res_v59 m c).symm
    · rw [Cert.ReferenceIdeal.Read.val_main_v41_eq, h1, h2, h4, h5, h6, h7]
      exact (Cert.Proof.Bridge.res_v41 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
